-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_arg11 : FVec F S128x10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x10 .f32) (main_arg10 : FVec F S10 .f32) (main_arg11 : FVec F S128x10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x10 .f32) (main_arg10 : FVec F S10 .f32) (main_arg11 : FVec F S128x10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S1x10 : Shape := ⟨2, ![1, 10]⟩
abbrev S50000x10 : Shape := ⟨2, ![50000, 10]⟩
abbrev S2000x10 : Shape := ⟨2, ![2000, 10]⟩
abbrev S256x10 : Shape := ⟨2, ![256, 10]⟩
abbrev S256 : Shape := ⟨1, ![256]⟩
abbrev S256x1 : Shape := ⟨2, ![256, 1]⟩

abbrev nBuf : Space → Nat
  | .hbm => 114
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x10, .f32⟩
  | .hbm, ⟨10, _⟩ => ⟨S10, .f32⟩
  | .hbm, ⟨11, _⟩ => ⟨S128x10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S_, .f32⟩
  | .hbm, ⟨84, _⟩ => ⟨S800000, .f32⟩
  | .hbm, ⟨85, _⟩ => ⟨S_, .f32⟩
  | .hbm, ⟨86, _⟩ => ⟨S50000, .f32⟩
  | .hbm, ⟨87, _⟩ => ⟨S800000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S1x10, .f32⟩
  | .hbm, ⟨96, _⟩ => ⟨S50000x10, .f32⟩
  | .hbm, ⟨97, _⟩ => ⟨S_, .f32⟩
  | .hbm, ⟨98, _⟩ => ⟨S256x10, .f32⟩
  | .hbm, ⟨99, _⟩ => ⟨S50000x1, .i32⟩
  | .hbm, ⟨100, _⟩ => ⟨S256x10, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S256, .f32⟩
  | .hbm, ⟨105, _⟩ => ⟨S50000x1, .i32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256x1, .f32⟩
  | .hbm, ⟨111, _⟩ => ⟨S256x10, .f32⟩
  | .hbm, ⟨112, _⟩ => ⟨S256x10, .f32⟩
  | .hbm, ⟨113, _⟩ => ⟨S256x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x10, .f32⟩
  | .local _ .vmem, ⟨23, _⟩ => ⟨S128x10, .f32⟩
  | .local _ .vmem, ⟨24, _⟩ => ⟨S1x10, .f32⟩
  | .local _ .vmem, ⟨25, _⟩ => ⟨S2000x10, .f32⟩
  | .local _ .vmem, ⟨26, _⟩ => ⟨S2000x10, .f32⟩
  | .local _ .vmem, ⟨27, _⟩ => ⟨S256x10, .f32⟩
  | .local _ .vmem, ⟨28, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x10 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  bcast_S_S256x10 : S_.BroadcastsInDim S256x10 (![] : Fin 0 → Fin S256x10.rank)
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  inb_S256x10_S256x10_0_0 : ∀ a, (![0, 0] : Fin 2 → Nat) a + S256x10.size a ≤ S256x10.size a
  h_S256x10 : 0 < S256x10.numel
  shapeCasts_S256x10_S256x10 : S256x10.ShapeCasts S256x10
  reduces_S256x10_S256 : S256x10.Reduces [1] S256
  shapeCasts_S256_S256x1 : S256.ShapeCasts S256x1
  broadcasts_S256x1_S256x10 : S256x1.Broadcasts S256x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x10_S2000x10_1_0_0_1_n_n_wf : DotDims.WF S2000x128 S128x10 S2000x10 [1] [0] [0] [1] [] []
  scatter_S256x10_S50000x1_S50000x10_1_0_0_1_wf : ScatterDims.WF S256x10 S50000x1 S50000x10 [1] [0] [0] 1
  scatter_S256_S50000x1_S50000_n_0_0_1_wf : ScatterDims.WF S256 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x10.size a ≤ S50000x10.size a
  hwx2_5 : ∀ i : grid2.Coords, EltTy.bits .f32 = 32 ∨ (Rect.block (s := S50000x10) S2000x10.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x10.size a ≤ S256x10.size a
  hwx3_0 : ∀ i : grid3.Coords, EltTy.bits .f32 = 32 ∨ (Rect.block (s := S256x10) S256x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x10.size a ≤ S256x10.size a
  hwx3_1 : ∀ i : grid3.Coords, EltTy.bits .f32 = 32 ∨ (Rect.block (s := S256x10) S256x10.size (cc3_transform_1 i) (hinb3_1 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def scatter_S256x10_S50000x1_S50000x10_1_0_0_1 : ScatterDims S256x10 S50000x1 S50000x10 where
  updateWindowDims := [1]
  insertedWindowDims := [0]
  scatterDimsToOperandDims := [0]
  indexVectorDim := 1
  wf := scatter_S256x10_S50000x1_S50000x10_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S256x10.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v79) S256x10.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x10 : Shape := ⟨2, ![50000, 10]⟩
abbrev S1x10 : Shape := ⟨2, ![1, 10]⟩
abbrev S256x10 : Shape := ⟨2, ![256, 10]⟩
abbrev S256 : Shape := ⟨1, ![256]⟩
abbrev S256x1 : Shape := ⟨2, ![256, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x10, .f32⟩
  | 10 => ⟨S10, .f32⟩
  | 11 => ⟨S128x10, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000x1, .f32⟩
  | 101 => ⟨S50000x128, .f32⟩
  | 102 => ⟨S50000x128, .f32⟩
  | 103 => ⟨S50000x10, .f32⟩
  | 104 => ⟨S1x10, .f32⟩
  | 105 => ⟨S50000x10, .f32⟩
  | 106 => ⟨S50000x10, .f32⟩
  | 107 => ⟨S50000x10, .f32⟩
  | 108 => ⟨S50000x10, .f32⟩
  | 109 => ⟨S_, .f32⟩
  | 110 => ⟨S256x10, .f32⟩
  | 111 => ⟨S50000x1, .i32⟩
  | 112 => ⟨S256x10, .f32⟩
  | 113 => ⟨S_, .f32⟩
  | 114 => ⟨S50000, .f32⟩
  | 115 => ⟨S_, .f32⟩
  | 116 => ⟨S256, .f32⟩
  | 117 => ⟨S50000x1, .i32⟩
  | 118 => ⟨S256, .f32⟩
  | 119 => ⟨S_, .f32⟩
  | 120 => ⟨S256, .f32⟩
  | 121 => ⟨S256, .f32⟩
  | 122 => ⟨S256x1, .f32⟩
  | 123 => ⟨S256x10, .f32⟩
  | 124 => ⟨S256x10, .f32⟩
  | 125 => ⟨S_, .f32⟩
  | 126 => ⟨S256, .f32⟩
  | 127 => ⟨S_, .f32⟩
  | _ => ⟨S50000x128, .f32⟩

abbrev hbmTy0_1 (i : Nat) : BufTy := match i % 128 with
  | 0 => ⟨S256, .f32⟩
  | 1 => ⟨S256, .f32⟩
  | 2 => ⟨S256x1, .f32⟩
  | 3 => ⟨S256x10, .f32⟩
  | 4 => ⟨S256x10, .f32⟩
  | 5 => ⟨S256x10, .f32⟩
  | 6 => ⟨S_, .f32⟩
  | 7 => ⟨S256, .f32⟩
  | 8 => ⟨S256x1, .f32⟩
  | 9 => ⟨S256x1, .f32⟩
  | 10 => ⟨S256x10, .f32⟩
  | 11 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call0_cst : Ref sig .tc := ⟨.hbm, 125, rfl⟩
abbrev main_call0_v0 : Ref sig .tc := ⟨.hbm, 126, rfl⟩
abbrev main_call0_cst_0 : Ref sig .tc := ⟨.hbm, 127, rfl⟩
abbrev main_call0_v1 : Ref sig .tc := ⟨.hbm, 128, rfl⟩
abbrev main_call0_v2 : Ref sig .tc := ⟨.hbm, 129, rfl⟩
abbrev main_call0_v3 : Ref sig .tc := ⟨.hbm, 130, rfl⟩
abbrev main_call0_v4 : Ref sig .tc := ⟨.hbm, 131, rfl⟩
abbrev main_call0_v5 : Ref sig .tc := ⟨.hbm, 132, rfl⟩
abbrev main_call0_v6 : Ref sig .tc := ⟨.hbm, 133, rfl⟩
abbrev main_call0_cst_1 : Ref sig .tc := ⟨.hbm, 134, rfl⟩
abbrev main_call0_v7 : Ref sig .tc := ⟨.hbm, 135, rfl⟩
abbrev main_call0_v8 : Ref sig .tc := ⟨.hbm, 136, rfl⟩
abbrev main_call0_v9 : Ref sig .tc := ⟨.hbm, 137, rfl⟩
abbrev main_call0_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S256x10 : S_.BroadcastsInDim S256x10 (![] : Fin 0 → Fin S256x10.rank)
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  reducesTo_S256x10_S256_d1 : S256x10.ReducesTo [1] S256
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []
  scatter_S256x10_S50000x1_S50000x10_1_0_0_1_wf : ScatterDims.WF S256x10 S50000x1 S50000x10 [1] [0] [0] 1
  scatter_S256_S50000x1_S50000_n_0_0_1_wf : ScatterDims.WF S256 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def scatter_S256x10_S50000x1_S50000x10_1_0_0_1 : ScatterDims S256x10 S50000x1 S50000x10 where
  updateWindowDims := [1]
  insertedWindowDims := [0]
  scatterDimsToOperandDims := [0]
  indexVectorDim := 1
  wf := scatter_S256x10_S50000x1_S50000x10_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

class Facts : Prop extends Facts₀ where

variable [Facts]
-- ==== Proof.Spec.lean ====
/-
  One SAGE layer's affine map, index by index over the extended reals, for any node count N, input width D and output
  width O:   out[r, o] = Σ_k agg[r, k] · Wl[k, o]  +  Σ_k x[r, k] · Wr[k, o]  +  b[o].
  The reference adds the bias between the two products and the kernel after them; addition of extended reals is
  commutative and associative, so both orders are this one function (no finiteness is used).
-/
import Idealize.ShloMosaic.PureOps.Ideal
import Idealize.ShloMosaic.Lib.ValueIdx

noncomputable section

open scoped BigOperators

namespace Cert.Sage

open Idealize.ShloMosaic Idealize.ShloMosaic.ValueIdx

/-- The affine map of one layer at row `r` and output column `o`. -/
def layerAt {N D O : Nat} (agg x : (⟨2, ![N, D]⟩ : Shape).Idx → EReal) (Wl Wr : (⟨2, ![D, O]⟩ : Shape).Idx → EReal)
    (b : Fin O → EReal) (r : Fin N) (o : Fin O) : EReal :=
  (∑ k : Fin D, agg (ix2 r k) * Wl (ix2 k o)) + (∑ k : Fin D, x (ix2 r k) * Wr (ix2 k o)) + b o

/-- The layer as one function of the array index. -/
def layer {N D O : Nat} (agg x : (⟨2, ![N, D]⟩ : Shape).Idx → EReal) (Wl Wr : (⟨2, ![D, O]⟩ : Shape).Idx → EReal)
    (b : Fin O → EReal) : (⟨2, ![N, O]⟩ : Shape).Idx → EReal :=
  fun i => layerAt agg x Wl Wr b ⟨(i 0).val, (i 0).isLt⟩ ⟨(i 1).val, (i 1).isLt⟩

theorem layer_apply {N D O : Nat} (agg x : (⟨2, ![N, D]⟩ : Shape).Idx → EReal) (Wl Wr : (⟨2, ![D, O]⟩ : Shape).Idx → EReal)
    (b : Fin O → EReal) (r : Fin N) (o : Fin O) :
    layer agg x Wl Wr b (ix2 r o) = (∑ k : Fin D, agg (ix2 r k) * Wl (ix2 k o)) + (∑ k : Fin D, x (ix2 r k) * Wr (ix2 k o)) + b o := rfl

/-- The reference's order of the three summands: the bias between the two products. -/
theorem layerAt_bias_between {N D O : Nat} (agg x : (⟨2, ![N, D]⟩ : Shape).Idx → EReal) (Wl Wr : (⟨2, ![D, O]⟩ : Shape).Idx → EReal)
    (b : Fin O → EReal) (r : Fin N) (o : Fin O) :
    ((∑ k : Fin D, agg (ix2 r k) * Wl (ix2 k o)) + b o) + (∑ k : Fin D, x (ix2 r k) * Wr (ix2 k o)) = layerAt agg x Wl Wr b r o :=
  add_right_comm _ _ _

end Cert.Sage

end
-- ==== Proof.KLayer0.lean ====
/-
  The value of one SAGE layer's kernel region: after the run its output array is the layer function
      out[r, o] = Σ_k agg[r, k] · Wl[k, o] + Σ_k x[r, k] · Wr[k, o] + b[o]
  of the arrays the region was entered with. The grid cuts the rows into 25 blocks of 2000; at a point the body loads
  its two row blocks, the two whole weight arrays and the one-row bias, forms the two block products (each the sum over
  the contracted axis: the change of float format before them is the identity on the extended reals), adds them and
  the broadcast bias, and stores the block. Row `p` of point `t`'s block is row `2000·t + p` of the array, the
  blocks cover the array, so the array ends at the layer function.
-/
import proofs.«113251_j61409442398712_1_alg».proof.Proof.Gen.KernelIdeal.Frame
import proofs.«113251_j61409442398712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer0

open Cert.KernelIdeal Cert.KernelIdeal.Gen Cert.Sage Idealize.ShloMosaic Idealize.ShloMosaic.TcCoe Idealize.SL.Sem Idealize.ShloMosaic.ValueIdx
open Idealize.ShloMosaic.Pipeline (Dat)

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block product read at an index: the sum over the contracted axis. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q) = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at row `p`, column `q` of the block. -/
theorem pay_apply (a0 a1 : Vec Ideal S2000x128 .f32) (w0 w1 : Vec Ideal S128x128 .f32) (bb : Vec Ideal S1x128 .f32) (p : Fin 2000) (q : Fin 128) :
    k0_pay1 (F := Ideal) a0 a1 w0 w1 bb (ix2 p q)
      = (∑ k : Fin 128, a0 (ix2 p k) * w0 (ix2 k q)) + (∑ k : Fin 128, a1 (ix2 p k) * w1 (ix2 k q)) + bb (ix2 (0 : Fin 1) q) := by
  unfold k0_pay1
  repeat rw [shapeCast_self]
  rw [addf_apply, addf_apply, mm_apply, mm_apply, broadcastTo_1b_ab_apply]
  rfl

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block row `t`, the weights and bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- Row `p` of the aggregate's block at point `t` is row `2000·t + p` of the array. -/
theorem blk0_apply (c : Dev nD) (t : Fin cfg0.N) (p : Fin 2000) (k : Fin 128) (r : Fin 50000) (hr : r.val = t.val * 2000 + p.val) :
    (iblk0 V c 0 t : Vec Ideal S2000x128 .f32) (ix2 p k) = (V c main_v22 : Vec Ideal S50000x128 .f32) (ix2 r k) := by
  obtain ⟨e0, e1, -⟩ := idx_facts t
  unfold iblk0
  rw [View.read_apply]
  show (V c main_v22 : Vec Ideal S50000x128 .f32) _ = (V c main_v22 : Vec Ideal S50000x128 .f32) _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of the node features' block at point `t` is row `2000·t + p` of the array. -/
theorem blk1_apply (c : Dev nD) (t : Fin cfg0.N) (p : Fin 2000) (k : Fin 128) (r : Fin 50000) (hr : r.val = t.val * 2000 + p.val) :
    (iblk0 V c 1 t : Vec Ideal S2000x128 .f32) (ix2 p k) = (V c main_arg0 : Vec Ideal S50000x128 .f32) (ix2 r k) := by
  obtain ⟨-, -, e2, e3, -⟩ := idx_facts t
  unfold iblk0
  rw [View.read_apply]
  show (V c main_arg0 : Vec Ideal S50000x128 .f32) _ = (V c main_arg0 : Vec Ideal S50000x128 .f32) _
  refine congrArg _ (funext fun a => Fin.ext ?_)
  match a with
  | ⟨0, _⟩ => show win0_1.index t (0 : Fin 2) * 2000 + 1 * p.val = r.val; rw [e2, hr]; omega
  | ⟨1, _⟩ => show win0_1.index t (1 : Fin 2) * 128 + 1 * k.val = k.val; rw [e3]; omega

/-- The weight blocks are the whole weight arrays at every point. -/
theorem blk2_apply (c : Dev nD) (t : Fin cfg0.N) (k : Fin 128) (q : Fin 128) :
    (iblk0 V c 2 t : Vec Ideal S128x128 .f32) (ix2 k q) = (V c main_arg3 : Vec Ideal S128x128 .f32) (ix2 k q) := by
  obtain ⟨-, -, -, -, e4, e5, -⟩ := idx_facts t
  unfold iblk0
  rw [View.read_apply]
  show (V c main_arg3 : Vec Ideal S128x128 .f32) _ = (V c main_arg3 : Vec Ideal S128x128 .f32) _
  refine congrArg _ (funext fun a => Fin.ext ?_)
  match a with
  | ⟨0, _⟩ => show win0_2.index t (0 : Fin 2) * 128 + 1 * k.val = k.val; rw [e4]; omega
  | ⟨1, _⟩ => show win0_2.index t (1 : Fin 2) * 128 + 1 * q.val = q.val; rw [e5]; omega

theorem blk3_apply (c : Dev nD) (t : Fin cfg0.N) (k : Fin 128) (q : Fin 128) :
    (iblk0 V c 3 t : Vec Ideal S128x128 .f32) (ix2 k q) = (V c main_arg5 : Vec Ideal S128x128 .f32) (ix2 k q) := by
  obtain ⟨-, -, -, -, -, -, e6, e7, -⟩ := idx_facts t
  unfold iblk0
  rw [View.read_apply]
  show (V c main_arg5 : Vec Ideal S128x128 .f32) _ = (V c main_arg5 : Vec Ideal S128x128 .f32) _
  refine congrArg _ (funext fun a => Fin.ext ?_)
  match a with
  | ⟨0, _⟩ => show win0_3.index t (0 : Fin 2) * 128 + 1 * k.val = k.val; rw [e6]; omega
  | ⟨1, _⟩ => show win0_3.index t (1 : Fin 2) * 128 + 1 * q.val = q.val; rw [e7]; omega

/-- The bias block is the whole one-row bias array at every point. -/
theorem blk4_apply (c : Dev nD) (t : Fin cfg0.N) (q : Fin 128) :
    (iblk0 V c 4 t : Vec Ideal S1x128 .f32) (ix2 (0 : Fin 1) q) = (V c main_v23 : Vec Ideal S1x128 .f32) (ix2 (0 : Fin 1) q) := by
  obtain ⟨-, -, -, -, -, -, -, -, e8, e9, -⟩ := idx_facts t
  unfold iblk0
  rw [View.read_apply]
  show (V c main_v23 : Vec Ideal S1x128 .f32) _ = (V c main_v23 : Vec Ideal S1x128 .f32) _
  refine congrArg _ (funext fun a => Fin.ext ?_)
  match a with
  | ⟨0, _⟩ => show win0_4.index t (0 : Fin 2) * 1 + 1 * 0 = 0; rw [e8]
  | ⟨1, _⟩ => show win0_4.index t (1 : Fin 2) * 128 + 1 * q.val = q.val; rw [e9]; omega

/-- The layer function of the arrays as the region finds them. -/
abbrev G (c : Dev nD) : Vec Ideal S50000x128 .f32 :=
  layer (V c main_v22 : Vec Ideal S50000x128 .f32) (V c main_arg0 : Vec Ideal S50000x128 .f32)
    (V c main_arg3 : Vec Ideal S128x128 .f32) (V c main_arg5 : Vec Ideal S128x128 .f32)
    (fun q => (V c main_v23 : Vec Ideal S1x128 .f32) (ix2 (0 : Fin 1) q))

/-- What the body stores at row `p`, column `q` of point `t`'s block is the layer at row `2000·t + p`. -/
theorem block_eq (c : Dev nD) (t : Fin cfg0.N) (p : Fin 2000) (q : Fin 128) (r : Fin 50000) (hr : r.val = t.val * 2000 + p.val) :
    k0_pay1 (F := Ideal) (iblk0 V c 0 t) (iblk0 V c 1 t) (iblk0 V c 2 t) (iblk0 V c 3 t) (iblk0 V c 4 t) (ix2 p q) = G V c (ix2 r q) := by
  refine (pay_apply (iblk0 V c 0 t) (iblk0 V c 1 t) (iblk0 V c 2 t) (iblk0 V c 3 t) (iblk0 V c 4 t) p q).trans ?_
  refine Eq.trans ?_ (layer_apply (V c main_v22 : Vec Ideal S50000x128 .f32) (V c main_arg0 : Vec Ideal S50000x128 .f32)
    (V c main_arg3 : Vec Ideal S128x128 .f32) (V c main_arg5 : Vec Ideal S128x128 .f32)
    (fun q => (V c main_v23 : Vec Ideal S1x128 .f32) (ix2 (0 : Fin 1) q)) r q).symm
  refine congrArg₂ (· + ·) (congrArg₂ (· + ·) (Finset.sum_congr rfl fun k _ => ?_) (Finset.sum_congr rfl fun k _ => ?_)) ?_
  · exact congrArg₂ (· * ·) (blk0_apply V c t p k r hr) (blk2_apply V c t k q)
  · exact congrArg₂ (· * ·) (blk1_apply V c t p k r hr) (blk3_apply V c t k q)
  · exact blk4_apply V c t q

/-- What point `t` writes back is block `t` of the layer function. -/
theorem flushed_eq (c : Dev nD) (t : Fin cfg0.N) :
    (dat0 V c).flushed 5 t = ((cfg0.win 5).blk t).view.read (Elt Ideal) (G V c) := by
  obtain ⟨-, -, -, -, -, -, -, -, -, -, e10, e11, ht⟩ := idx_facts t
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  rw [View.read_apply]
  have hemb : ((cfg0.win 5).blk t).view.emb (ix2 p q) = ix2 (⟨t.val * 2000 + p.val, by omega⟩ : Fin 50000) q := funext fun a => Fin.ext (by
    match a with
    | ⟨0, _⟩ => show win0_5.index t (0 : Fin 2) * 2000 + 1 * p.val = t.val * 2000 + p.val; rw [e10]; omega
    | ⟨1, _⟩ => show win0_5.index t (1 : Fin 2) * 128 + 1 * q.val = q.val; rw [e11]; omega)
  show k0_pay1 (F := Ideal) (iblk0 V c 0 t) (iblk0 V c 1 t) (iblk0 V c 2 t) (iblk0 V c 3 t) (iblk0 V c 4 t) (ix2 p q) = G V c (((cfg0.win 5).blk t).view.emb (ix2 p q))
  rw [hemb]
  exact block_eq V c t p q _ rfl

/-- An index of the output array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every index of the output array is in some point's block: row `r` is in block `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < grid0.N := by rw [N_0]; omega
  obtain ⟨-, -, -, -, -, -, -, -, -, -, e10, e11, -⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e10]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e11]; omega

/-- The region's output array after the run is the layer function of the arrays the region was entered with. -/
theorem arr_eq (c : Dev nD) : (dat0 V c).arrAt 5 cfg0.N = G V c :=
  (dat0 V c).arrAt_eq_of_cover 5 (G V c) (fun t _ => flushed_eq V c t) (cover)

end Region

end Cert.KernelIdeal.Layer0

end
-- ==== Proof.KLayer1.lean ====
import proofs.«113251_j61409442398712_1_alg».proof.Proof.Gen.KernelIdeal.Frame
import proofs.«113251_j61409442398712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen Cert.Sage Idealize.ShloMosaic Idealize.ShloMosaic.TcCoe Idealize.SL.Sem Idealize.ShloMosaic.ValueIdx
open Idealize.ShloMosaic.Pipeline (Dat)

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block product read at an index: the sum over the contracted axis. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q) = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at row `p`, column `q` of the block. -/
theorem pay_apply (a0 a1 : Vec Ideal S2000x128 .f32) (w0 w1 : Vec Ideal S128x128 .f32) (bb : Vec Ideal S1x128 .f32) (p : Fin 2000) (q : Fin 128) :
    k1_pay1 (F := Ideal) a0 a1 w0 w1 bb (ix2 p q)
      = (∑ k : Fin 128, a0 (ix2 p k) * w0 (ix2 k q)) + (∑ k : Fin 128, a1 (ix2 p k) * w1 (ix2 k q)) + bb (ix2 (0 : Fin 1) q) := by
  unfold k1_pay1
  repeat rw [shapeCast_self]
  rw [addf_apply, addf_apply, mm_apply, mm_apply, broadcastTo_1b_ab_apply]
  rfl

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block row `t`, the weights and bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- Row `p` of the aggregate's block at point `t` is row `2000·t + p` of the array. -/
theorem blk0_apply (c : Dev nD) (t : Fin cfg1.N) (p : Fin 2000) (k : Fin 128) (r : Fin 50000) (hr : r.val = t.val * 2000 + p.val) :
    (iblk1 V c 0 t : Vec Ideal S2000x128 .f32) (ix2 p k) = (V c main_v43 : Vec Ideal S50000x128 .f32) (ix2 r k) := by
  obtain ⟨e0, e1, -⟩ := idx_facts t
  unfold iblk1
  rw [View.read_apply]
  show (V c main_v43 : Vec Ideal S50000x128 .f32) _ = (V c main_v43 : Vec Ideal S50000x128 .f32) _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of the node features' block at point `t` is row `2000·t + p` of the array. -/
theorem blk1_apply (c : Dev nD) (t : Fin cfg1.N) (p : Fin 2000) (k : Fin 128) (r : Fin 50000) (hr : r.val = t.val * 2000 + p.val) :
    (iblk1 V c 1 t : Vec Ideal S2000x128 .f32) (ix2 p k) = (V c main_v24 : Vec Ideal S50000x128 .f32) (ix2 r k) := by
  obtain ⟨-, -, e2, e3, -⟩ := idx_facts t
  unfold iblk1
  rw [View.read_apply]
  show (V c main_v24 : Vec Ideal S50000x128 .f32) _ = (V c main_v24 : Vec Ideal S50000x128 .f32) _
  refine congrArg _ (funext fun a => Fin.ext ?_)
  match a with
  | ⟨0, _⟩ => show win1_1.index t (0 : Fin 2) * 2000 + 1 * p.val = r.val; rw [e2, hr]; omega
  | ⟨1, _⟩ => show win1_1.index t (1 : Fin 2) * 128 + 1 * k.val = k.val; rw [e3]; omega

/-- The weight blocks are the whole weight arrays at every point. -/
theorem blk2_apply (c : Dev nD) (t : Fin cfg1.N) (k : Fin 128) (q : Fin 128) :
    (iblk1 V c 2 t : Vec Ideal S128x128 .f32) (ix2 k q) = (V c main_arg6 : Vec Ideal S128x128 .f32) (ix2 k q) := by
  obtain ⟨-, -, -, -, e4, e5, -⟩ := idx_facts t
  unfold iblk1
  rw [View.read_apply]
  show (V c main_arg6 : Vec Ideal S128x128 .f32) _ = (V c main_arg6 : Vec Ideal S128x128 .f32) _
  refine congrArg _ (funext fun a => Fin.ext ?_)
  match a with
  | ⟨0, _⟩ => show win1_2.index t (0 : Fin 2) * 128 + 1 * k.val = k.val; rw [e4]; omega
  | ⟨1, _⟩ => show win1_2.index t (1 : Fin 2) * 128 + 1 * q.val = q.val; rw [e5]; omega

theorem blk3_apply (c : Dev nD) (t : Fin cfg1.N) (k : Fin 128) (q : Fin 128) :
    (iblk1 V c 3 t : Vec Ideal S128x128 .f32) (ix2 k q) = (V c main_arg8 : Vec Ideal S128x128 .f32) (ix2 k q) := by
  obtain ⟨-, -, -, -, -, -, e6, e7, -⟩ := idx_facts t
  unfold iblk1
  rw [View.read_apply]
  show (V c main_arg8 : Vec Ideal S128x128 .f32) _ = (V c main_arg8 : Vec Ideal S128x128 .f32) _
  refine congrArg _ (funext fun a => Fin.ext ?_)
  match a with
  | ⟨0, _⟩ => show win1_3.index t (0 : Fin 2) * 128 + 1 * k.val = k.val; rw [e6]; omega
  | ⟨1, _⟩ => show win1_3.index t (1 : Fin 2) * 128 + 1 * q.val = q.val; rw [e7]; omega

/-- The bias block is the whole one-row bias array at every point. -/
theorem blk4_apply (c : Dev nD) (t : Fin cfg1.N) (q : Fin 128) :
    (iblk1 V c 4 t : Vec Ideal S1x128 .f32) (ix2 (0 : Fin 1) q) = (V c main_v44 : Vec Ideal S1x128 .f32) (ix2 (0 : Fin 1) q) := by
  obtain ⟨-, -, -, -, -, -, -, -, e8, e9, -⟩ := idx_facts t
  unfold iblk1
  rw [View.read_apply]
  show (V c main_v44 : Vec Ideal S1x128 .f32) _ = (V c main_v44 : Vec Ideal S1x128 .f32) _
  refine congrArg _ (funext fun a => Fin.ext ?_)
  match a with
  | ⟨0, _⟩ => show win1_4.index t (0 : Fin 2) * 1 + 1 * 0 = 0; rw [e8]
  | ⟨1, _⟩ => show win1_4.index t (1 : Fin 2) * 128 + 1 * q.val = q.val; rw [e9]; omega

/-- The layer function of the arrays as the region finds them. -/
abbrev G (c : Dev nD) : Vec Ideal S50000x128 .f32 :=
  layer (V c main_v43 : Vec Ideal S50000x128 .f32) (V c main_v24 : Vec Ideal S50000x128 .f32)
    (V c main_arg6 : Vec Ideal S128x128 .f32) (V c main_arg8 : Vec Ideal S128x128 .f32)
    (fun q => (V c main_v44 : Vec Ideal S1x128 .f32) (ix2 (0 : Fin 1) q))

/-- What the body stores at row `p`, column `q` of point `t`'s block is the layer at row `2000·t + p`. -/
theorem block_eq (c : Dev nD) (t : Fin cfg1.N) (p : Fin 2000) (q : Fin 128) (r : Fin 50000) (hr : r.val = t.val * 2000 + p.val) :
    k1_pay1 (F := Ideal) (iblk1 V c 0 t) (iblk1 V c 1 t) (iblk1 V c 2 t) (iblk1 V c 3 t) (iblk1 V c 4 t) (ix2 p q) = G V c (ix2 r q) := by
  refine (pay_apply (iblk1 V c 0 t) (iblk1 V c 1 t) (iblk1 V c 2 t) (iblk1 V c 3 t) (iblk1 V c 4 t) p q).trans ?_
  refine Eq.trans ?_ (layer_apply (V c main_v43 : Vec Ideal S50000x128 .f32) (V c main_v24 : Vec Ideal S50000x128 .f32)
    (V c main_arg6 : Vec Ideal S128x128 .f32) (V c main_arg8 : Vec Ideal S128x128 .f32)
    (fun q => (V c main_v44 : Vec Ideal S1x128 .f32) (ix2 (0 : Fin 1) q)) r q).symm
  refine congrArg₂ (· + ·) (congrArg₂ (· + ·) (Finset.sum_congr rfl fun k _ => ?_) (Finset.sum_congr rfl fun k _ => ?_)) ?_
  · exact congrArg₂ (· * ·) (blk0_apply V c t p k r hr) (blk2_apply V c t k q)
  · exact congrArg₂ (· * ·) (blk1_apply V c t p k r hr) (blk3_apply V c t k q)
  · exact blk4_apply V c t q

/-- What point `t` writes back is block `t` of the layer function. -/
theorem flushed_eq (c : Dev nD) (t : Fin cfg1.N) :
    (dat1 V c).flushed 5 t = ((cfg1.win 5).blk t).view.read (Elt Ideal) (G V c) := by
  obtain ⟨-, -, -, -, -, -, -, -, -, -, e10, e11, ht⟩ := idx_facts t
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  rw [View.read_apply]
  have hemb : ((cfg1.win 5).blk t).view.emb (ix2 p q) = ix2 (⟨t.val * 2000 + p.val, by omega⟩ : Fin 50000) q := funext fun a => Fin.ext (by
    match a with
    | ⟨0, _⟩ => show win1_5.index t (0 : Fin 2) * 2000 + 1 * p.val = t.val * 2000 + p.val; rw [e10]; omega
    | ⟨1, _⟩ => show win1_5.index t (1 : Fin 2) * 128 + 1 * q.val = q.val; rw [e11]; omega)
  show k1_pay1 (F := Ideal) (iblk1 V c 0 t) (iblk1 V c 1 t) (iblk1 V c 2 t) (iblk1 V c 3 t) (iblk1 V c 4 t) (ix2 p q) = G V c (((cfg1.win 5).blk t).view.emb (ix2 p q))
  rw [hemb]
  exact block_eq V c t p q _ rfl

/-- An index of the output array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every index of the output array is in some point's block: row `r` is in block `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < grid1.N := by rw [N_1]; omega
  obtain ⟨-, -, -, -, -, -, -, -, -, -, e10, e11, -⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e10]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e11]; omega

/-- The region's output array after the run is the layer function of the arrays the region was entered with. -/
theorem arr_eq (c : Dev nD) : (dat1 V c).arrAt 5 cfg1.N = G V c :=
  (dat1 V c).arrAt_eq_of_cover 5 (G V c) (fun t _ => flushed_eq V c t) (cover)

end Region

end Cert.KernelIdeal.Layer1

end
-- ==== Proof.KLayer2.lean ====
import proofs.«113251_j61409442398712_1_alg».proof.Proof.Gen.KernelIdeal.Frame
import proofs.«113251_j61409442398712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen Cert.Sage Idealize.ShloMosaic Idealize.ShloMosaic.TcCoe Idealize.SL.Sem Idealize.ShloMosaic.ValueIdx
open Idealize.ShloMosaic.Pipeline (Dat)

theorem lhs_0 (i : S2000x10.Idx) (q : dot_S2000x128_S128x10_S2000x10_1_0_0_1_n_n.contr.Idx) : (dot_S2000x128_S128x10_S2000x10_1_0_0_1_n_n.lhsIdx i q 0).val = (i 0).val := by
  unfold DotDims.lhsIdx
  rw [dif_neg (show ¬(0 : Fin S2000x128.rank) ∈ dot_S2000x128_S128x10_S2000x10_1_0_0_1_n_n.lhsBatch by decide), dif_pos (show (0 : Fin S2000x128.rank) ∈ dot_S2000x128_S128x10_S2000x10_1_0_0_1_n_n.lhsNonContracting by decide)]
  rfl
theorem lhs_1 (i : S2000x10.Idx) (q : dot_S2000x128_S128x10_S2000x10_1_0_0_1_n_n.contr.Idx) : (dot_S2000x128_S128x10_S2000x10_1_0_0_1_n_n.lhsIdx i q 1).val = (q ⟨0, by decide⟩).val :=
  dot_S2000x128_S128x10_S2000x10_1_0_0_1_n_n.lhsIdx_val_of_single rfl i q
theorem rhs_0 (i : S2000x10.Idx) (q : dot_S2000x128_S128x10_S2000x10_1_0_0_1_n_n.contr.Idx) : (dot_S2000x128_S128x10_S2000x10_1_0_0_1_n_n.rhsIdx i q 0).val = (q ⟨0, by decide⟩).val :=
  dot_S2000x128_S128x10_S2000x10_1_0_0_1_n_n.rhsIdx_val_of_single rfl i q
theorem rhs_1 (i : S2000x10.Idx) (q : dot_S2000x128_S128x10_S2000x10_1_0_0_1_n_n.contr.Idx) : (dot_S2000x128_S128x10_S2000x10_1_0_0_1_n_n.rhsIdx i q 1).val = (i 1).val := by
  unfold DotDims.rhsIdx
  rw [dif_neg (show ¬(1 : Fin S128x10.rank) ∈ dot_S2000x128_S128x10_S2000x10_1_0_0_1_n_n.rhsBatch by decide), dif_pos (show (1 : Fin S128x10.rank) ∈ dot_S2000x128_S128x10_S2000x10_1_0_0_1_n_n.rhsNonContracting by decide)]
  rfl

/-- One block product read at an index: the sum over the contracted axis. -/
theorem mm_apply (l : FVec Ideal S2000x128 .bf16) (r : FVec Ideal S128x10 .bf16) (p : Fin 2000) (q : Fin 10) :
    matmul dot_S2000x128_S128x10_S2000x10_1_0_0_1_n_n none l r (constant (F := Ideal) S2000x10 .f32 0x00000000#32) (ix2 p q) = ∑ k : Fin 128, l (ix2 p k) * r (ix2 k q) := by
  simp only [matmul]
  rw [Ideal.matmul_constant_zero_apply, ← Equiv.sum_comp (contrEquiv1 dot_S2000x128_S128x10_S2000x10_1_0_0_1_n_n 128 rfl rfl).symm]
  refine Finset.sum_congr rfl fun k _ => ?_
  have hk := contrEquiv1_symm_val dot_S2000x128_S128x10_S2000x10_1_0_0_1_n_n 128 rfl rfl k
  have el : dot_S2000x128_S128x10_S2000x10_1_0_0_1_n_n.lhsIdx (ix2 p q) ((contrEquiv1 dot_S2000x128_S128x10_S2000x10_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x10_S2000x10_1_0_0_1_n_n.rhsIdx (ix2 p q) ((contrEquiv1 dot_S2000x128_S128x10_S2000x10_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at row `p`, column `q` of the block. -/
theorem pay_apply (a0 a1 : Vec Ideal S2000x128 .f32) (w0 w1 : Vec Ideal S128x10 .f32) (bb : Vec Ideal S1x10 .f32) (p : Fin 2000) (q : Fin 10) :
    k2_pay1 (F := Ideal) a0 a1 w0 w1 bb (ix2 p q)
      = (∑ k : Fin 128, a0 (ix2 p k) * w0 (ix2 k q)) + (∑ k : Fin 128, a1 (ix2 p k) * w1 (ix2 k q)) + bb (ix2 (0 : Fin 1) q) := by
  unfold k2_pay1
  repeat rw [shapeCast_self]
  rw [addf_apply, addf_apply, mm_apply, mm_apply, broadcastTo_1b_ab_apply]
  rfl

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block row `t`, the weights and bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

/-- Row `p` of the aggregate's block at point `t` is row `2000·t + p` of the array. -/
theorem blk0_apply (c : Dev nD) (t : Fin cfg2.N) (p : Fin 2000) (k : Fin 128) (r : Fin 50000) (hr : r.val = t.val * 2000 + p.val) :
    (iblk2 V c 0 t : Vec Ideal S2000x128 .f32) (ix2 p k) = (V c main_v64 : Vec Ideal S50000x128 .f32) (ix2 r k) := by
  obtain ⟨e0, e1, -⟩ := idx_facts t
  unfold iblk2
  rw [View.read_apply]
  show (V c main_v64 : Vec Ideal S50000x128 .f32) _ = (V c main_v64 : Vec Ideal S50000x128 .f32) _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Row `p` of the node features' block at point `t` is row `2000·t + p` of the array. -/
theorem blk1_apply (c : Dev nD) (t : Fin cfg2.N) (p : Fin 2000) (k : Fin 128) (r : Fin 50000) (hr : r.val = t.val * 2000 + p.val) :
    (iblk2 V c 1 t : Vec Ideal S2000x128 .f32) (ix2 p k) = (V c main_v45 : Vec Ideal S50000x128 .f32) (ix2 r k) := by
  obtain ⟨-, -, e2, e3, -⟩ := idx_facts t
  unfold iblk2
  rw [View.read_apply]
  show (V c main_v45 : Vec Ideal S50000x128 .f32) _ = (V c main_v45 : Vec Ideal S50000x128 .f32) _
  refine congrArg _ (funext fun a => Fin.ext ?_)
  match a with
  | ⟨0, _⟩ => show win2_1.index t (0 : Fin 2) * 2000 + 1 * p.val = r.val; rw [e2, hr]; omega
  | ⟨1, _⟩ => show win2_1.index t (1 : Fin 2) * 128 + 1 * k.val = k.val; rw [e3]; omega

/-- The weight blocks are the whole weight arrays at every point. -/
theorem blk2_apply (c : Dev nD) (t : Fin cfg2.N) (k : Fin 128) (q : Fin 10) :
    (iblk2 V c 2 t : Vec Ideal S128x10 .f32) (ix2 k q) = (V c main_arg9 : Vec Ideal S128x10 .f32) (ix2 k q) := by
  obtain ⟨-, -, -, -, e4, e5, -⟩ := idx_facts t
  unfold iblk2
  rw [View.read_apply]
  show (V c main_arg9 : Vec Ideal S128x10 .f32) _ = (V c main_arg9 : Vec Ideal S128x10 .f32) _
  refine congrArg _ (funext fun a => Fin.ext ?_)
  match a with
  | ⟨0, _⟩ => show win2_2.index t (0 : Fin 2) * 128 + 1 * k.val = k.val; rw [e4]; omega
  | ⟨1, _⟩ => show win2_2.index t (1 : Fin 2) * 10 + 1 * q.val = q.val; rw [e5]; omega

theorem blk3_apply (c : Dev nD) (t : Fin cfg2.N) (k : Fin 128) (q : Fin 10) :
    (iblk2 V c 3 t : Vec Ideal S128x10 .f32) (ix2 k q) = (V c main_arg11 : Vec Ideal S128x10 .f32) (ix2 k q) := by
  obtain ⟨-, -, -, -, -, -, e6, e7, -⟩ := idx_facts t
  unfold iblk2
  rw [View.read_apply]
  show (V c main_arg11 : Vec Ideal S128x10 .f32) _ = (V c main_arg11 : Vec Ideal S128x10 .f32) _
  refine congrArg _ (funext fun a => Fin.ext ?_)
  match a with
  | ⟨0, _⟩ => show win2_3.index t (0 : Fin 2) * 128 + 1 * k.val = k.val; rw [e6]; omega
  | ⟨1, _⟩ => show win2_3.index t (1 : Fin 2) * 10 + 1 * q.val = q.val; rw [e7]; omega

/-- The bias block is the whole one-row bias array at every point. -/
theorem blk4_apply (c : Dev nD) (t : Fin cfg2.N) (q : Fin 10) :
    (iblk2 V c 4 t : Vec Ideal S1x10 .f32) (ix2 (0 : Fin 1) q) = (V c main_v65 : Vec Ideal S1x10 .f32) (ix2 (0 : Fin 1) q) := by
  obtain ⟨-, -, -, -, -, -, -, -, e8, e9, -⟩ := idx_facts t
  unfold iblk2
  rw [View.read_apply]
  show (V c main_v65 : Vec Ideal S1x10 .f32) _ = (V c main_v65 : Vec Ideal S1x10 .f32) _
  refine congrArg _ (funext fun a => Fin.ext ?_)
  match a with
  | ⟨0, _⟩ => show win2_4.index t (0 : Fin 2) * 1 + 1 * 0 = 0; rw [e8]
  | ⟨1, _⟩ => show win2_4.index t (1 : Fin 2) * 10 + 1 * q.val = q.val; rw [e9]; omega

/-- The layer function of the arrays as the region finds them. -/
abbrev G (c : Dev nD) : Vec Ideal S50000x10 .f32 :=
  layer (V c main_v64 : Vec Ideal S50000x128 .f32) (V c main_v45 : Vec Ideal S50000x128 .f32)
    (V c main_arg9 : Vec Ideal S128x10 .f32) (V c main_arg11 : Vec Ideal S128x10 .f32)
    (fun q => (V c main_v65 : Vec Ideal S1x10 .f32) (ix2 (0 : Fin 1) q))

/-- What the body stores at row `p`, column `q` of point `t`'s block is the layer at row `2000·t + p`. -/
theorem block_eq (c : Dev nD) (t : Fin cfg2.N) (p : Fin 2000) (q : Fin 10) (r : Fin 50000) (hr : r.val = t.val * 2000 + p.val) :
    k2_pay1 (F := Ideal) (iblk2 V c 0 t) (iblk2 V c 1 t) (iblk2 V c 2 t) (iblk2 V c 3 t) (iblk2 V c 4 t) (ix2 p q) = G V c (ix2 r q) := by
  refine (pay_apply (iblk2 V c 0 t) (iblk2 V c 1 t) (iblk2 V c 2 t) (iblk2 V c 3 t) (iblk2 V c 4 t) p q).trans ?_
  refine Eq.trans ?_ (layer_apply (V c main_v64 : Vec Ideal S50000x128 .f32) (V c main_v45 : Vec Ideal S50000x128 .f32)
    (V c main_arg9 : Vec Ideal S128x10 .f32) (V c main_arg11 : Vec Ideal S128x10 .f32)
    (fun q => (V c main_v65 : Vec Ideal S1x10 .f32) (ix2 (0 : Fin 1) q)) r q).symm
  refine congrArg₂ (· + ·) (congrArg₂ (· + ·) (Finset.sum_congr rfl fun k _ => ?_) (Finset.sum_congr rfl fun k _ => ?_)) ?_
  · exact congrArg₂ (· * ·) (blk0_apply V c t p k r hr) (blk2_apply V c t k q)
  · exact congrArg₂ (· * ·) (blk1_apply V c t p k r hr) (blk3_apply V c t k q)
  · exact blk4_apply V c t q

/-- What point `t` writes back is block `t` of the layer function. -/
theorem flushed_eq (c : Dev nD) (t : Fin cfg2.N) :
    (dat2 V c).flushed 5 t = ((cfg2.win 5).blk t).view.read (Elt Ideal) (G V c) := by
  obtain ⟨-, -, -, -, -, -, -, -, -, -, e10, e11, ht⟩ := idx_facts t
  show (cfg2.win 5).cut (grid2.coords t) ((dat2 V c).after 5 t) = _
  rw [after2_5]
  unfold out2_5
  rw [View.canon_unit_zero hz]
  simp only [View.ld_unit_zero (S := S2000x128) hz, View.ld_unit_zero (S := S128x10) hz, View.ld_unit_zero (S := S1x10) hz]
  funext j
  obtain ⟨p, q, rfl⟩ : ∃ (p : Fin 2000) (q : Fin 10), j = ix2 p q := ⟨j 0, j 1, eq_ix2 (n0 := 2000) (n1 := 10) j⟩
  rw [View.read_apply]
  have hemb : ((cfg2.win 5).blk t).view.emb (ix2 p q) = ix2 (⟨t.val * 2000 + p.val, by omega⟩ : Fin 50000) q := funext fun a => Fin.ext (by
    match a with
    | ⟨0, _⟩ => show win2_5.index t (0 : Fin 2) * 2000 + 1 * p.val = t.val * 2000 + p.val; rw [e10]; omega
    | ⟨1, _⟩ => show win2_5.index t (1 : Fin 2) * 10 + 1 * q.val = q.val; rw [e11]; omega)
  show k2_pay1 (F := Ideal) (iblk2 V c 0 t) (iblk2 V c 1 t) (iblk2 V c 2 t) (iblk2 V c 3 t) (iblk2 V c 4 t) (ix2 p q) = G V c (((cfg2.win 5).blk t).view.emb (ix2 p q))
  rw [hemb]
  exact block_eq V c t p q _ rfl

/-- An index of the output array is in point `t`'s block iff each coordinate is in the block's range. -/
theorem mem_blk (t : Fin cfg2.N) (i : S50000x10.Idx) :
    i ∈ ((cfg2.win 5).blk t).view.set ↔ ∀ a : Fin 2, win2_5.index t a * S2000x10.size a ≤ (i a).val ∧ (i a).val < win2_5.index t a * S2000x10.size a + S2000x10.size a := by
  show i ∈ ((View.whole main_v66).slice (win2_5.rect t)).set ↔ _
  rw [View.set_slice_whole, Rect.mem_set_unit]
  exact Iff.rfl

/-- Every index of the output array is in some point's block: row `r` is in block `r / 2000`. -/
theorem cover (i : S50000x10.Idx) : ∃ t : Fin cfg2.N, (cfg2.win 5).flush t = true ∧ i ∈ ((cfg2.win 5).blk t).view.set := by
  have hi0 : (i 0).val < 50000 := (i 0).isLt
  have hi1 : (i 1).val < 10 := (i 1).isLt
  have hN : (i 0).val / 2000 < grid2.N := by rw [N_2]; omega
  obtain ⟨-, -, -, -, -, -, -, -, -, -, e10, e11, -⟩ := idx_facts ⟨(i 0).val / 2000, hN⟩
  refine ⟨⟨(i 0).val / 2000, hN⟩, flush2_5 _, ?_⟩
  rw [mem_blk]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e10]; show (i 0).val / 2000 * 2000 ≤ (i 0).val ∧ (i 0).val < (i 0).val / 2000 * 2000 + 2000; omega
  | ⟨1, _⟩ =>
    show win2_5.index ⟨(i 0).val / 2000, hN⟩ (1 : Fin 2) * 10 ≤ (i 1).val ∧ (i 1).val < win2_5.index ⟨(i 0).val / 2000, hN⟩ (1 : Fin 2) * 10 + 10
    rw [e11]; omega

/-- The region's output array after the run is the layer function of the arrays the region was entered with. -/
theorem arr_eq (c : Dev nD) : (dat2 V c).arrAt 5 cfg2.N = G V c :=
  (dat2 V c).arrAt_eq_of_cover 5 (G V c) (fun t _ => flushed_eq V c t) (cover)

end Region

end Cert.KernelIdeal.Layer2

end
-- ==== Proof.KRegion3.lean ====
/-
  The value of the log-softmax region: its grid has one point, whose input block is the whole pooled array and whose
  output block is the whole result array; so after the run the result array is the body's function of the pooled
  array the region was entered with.
-/
import proofs.«113251_j61409442398712_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows sit at block (0, 0) at the grid's one point. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

/-- The input block is the whole pooled array. -/
theorem blk_eq (c : Dev nD) (t : Fin cfg3.N) : (iblk3 V c 0 t : Vec Ideal S256x10 .f32) = (V c main_v78 : Vec Ideal S256x10 .f32) := by
  obtain ⟨e0, e1, -⟩ := idx_facts t
  funext j
  unfold iblk3
  rw [View.read_apply]
  show (V c main_v78 : Vec Ideal S256x10 .f32) _ = (V c main_v78 : Vec Ideal S256x10 .f32) _
  refine congrArg _ (funext fun a => Fin.ext ?_)
  match a with
  | ⟨0, _⟩ => show win3_0.index t (0 : Fin 2) * 256 + 1 * (j 0).val = (j 0).val; rw [e0]; omega
  | ⟨1, _⟩ => show win3_0.index t (1 : Fin 2) * 10 + 1 * (j 1).val = (j 1).val; rw [e1]; omega

/-- The body's function of the pooled array the region was entered with. -/
abbrev G (c : Dev nD) : Vec Ideal S256x10 .f32 := k3_pay1 (F := Ideal) (V c main_v78 : Vec Ideal S256x10 .f32)

/-- What the one point writes back is the whole of that function. -/
theorem flushed_eq (c : Dev nD) (t : Fin cfg3.N) :
    (dat3 V c).flushed 1 t = ((cfg3.win 1).blk t).view.read (Elt Ideal) (G V c) := by
  obtain ⟨-, -, e2, e3⟩ := idx_facts t
  show (cfg3.win 1).cut (grid3.coords t) ((dat3 V c).after 1 t) = _
  rw [after3_1]
  unfold out3_1
  rw [View.canon_unit_zero hz]
  simp only [View.ld_unit_zero (S := S256x10) hz]
  rw [blk_eq V c t]
  funext j
  rw [View.read_apply]
  show G V c j = G V c (((cfg3.win 1).blk t).view.emb j)
  refine congrArg _ (funext fun a => Fin.ext ?_)
  match a with
  | ⟨0, _⟩ => show (j 0).val = win3_1.index t (0 : Fin 2) * 256 + 1 * (j 0).val; rw [e2]; omega
  | ⟨1, _⟩ => show (j 1).val = win3_1.index t (1 : Fin 2) * 10 + 1 * (j 1).val; rw [e3]; omega

theorem mem_blk (t : Fin cfg3.N) (i : S256x10.Idx) :
    i ∈ ((cfg3.win 1).blk t).view.set ↔ ∀ a : Fin 2, win3_1.index t a * S256x10.size a ≤ (i a).val ∧ (i a).val < win3_1.index t a * S256x10.size a + S256x10.size a := by
  show i ∈ ((View.whole main_v79).slice (win3_1.rect t)).set ↔ _
  rw [View.set_slice_whole, Rect.mem_set_unit]
  exact Iff.rfl

/-- The one block is the whole result array. -/
theorem cover (i : S256x10.Idx) : ∃ t : Fin cfg3.N, (cfg3.win 1).flush t = true ∧ i ∈ ((cfg3.win 1).blk t).view.set := by
  have hi0 : (i 0).val < 256 := (i 0).isLt
  have hi1 : (i 1).val < 10 := (i 1).isLt
  obtain ⟨-, -, e2, e3⟩ := idx_facts t3_0
  refine ⟨t3_0, flush3_1 _, ?_⟩
  rw [mem_blk]
  intro a
  match a with
  | ⟨0, _⟩ => show win3_1.index t3_0 (0 : Fin 2) * 256 ≤ (i 0).val ∧ (i 0).val < win3_1.index t3_0 (0 : Fin 2) * 256 + 256; rw [e2]; omega
  | ⟨1, _⟩ => show win3_1.index t3_0 (1 : Fin 2) * 10 ≤ (i 1).val ∧ (i 1).val < win3_1.index t3_0 (1 : Fin 2) * 10 + 10; rw [e3]; omega

/-- The result array after the run is the body's function of the pooled array. -/
theorem arr_eq (c : Dev nD) : (dat3 V c).arrAt 1 cfg3.N = G V c :=
  (dat3 V c).arrAt_eq_of_cover 1 (G V c) (fun t _ => flushed_eq V c t) (cover)

end Cert.KernelIdeal.Region3

end
-- ==== Proof.RefLayers.lean ====
/-
  The reference's three layer stages are the layer function of their inputs, index by index: each `dot_general` is the
  sum over the contracted axis, the bias is broadcast along the rows, and the reference's order of the summands
  (bias between the two products) is re-associated.
-/
import proofs.«113251_j61409442398712_1_alg».proof.Proof.Gen.ReferenceIdeal.Read
import proofs.«113251_j61409442398712_1_alg».proof.Proof.Spec

noncomputable section

open scoped BigOperators

namespace Cert.ReferenceIdeal.Layers

open Cert.ReferenceIdeal Cert.ReferenceIdeal.Read Cert.Sage Idealize.ShloMosaic Idealize.ShloMosaic.ValueIdx

/-- The first layer's stage: the mean-aggregated features times Wl1, the node features times Wr1, and the bias bl1. -/
theorem layer1 (x0 : FVec Ideal S50000x128 .f32) (x1 : IVec S2x800000 32) (x3 : FVec Ideal S128x128 .f32) (x4 : FVec Ideal S128 .f32) (x5 : FVec Ideal S128x128 .f32) :
    val_main_v28 (F := Ideal) x0 x1 x3 x4 x5 = layer (val_main_v22 (F := Ideal) x0 x1) (x0) x3 x5 (fun q => x4 (ix1 q)) := by
  funext i
  obtain ⟨r, o, rfl⟩ : ∃ (r : Fin 50000) (o : Fin 128), i = ix2 r o := ⟨i 0, i 1, eq_ix2 i⟩
  rw [val_main_v28_apply, val_main_v26_apply, val_main_v23_apply, val_main_v25_apply, val_main_v24_apply, val_main_v27_apply]
  have e1 : ∀ k : Fin 128, lidx_main_v23 (ix2 r o) k = ix2 r k := fun k => funext fun a => by
    match a with | ⟨0, _⟩ => rfl | ⟨1, _⟩ => rfl
  have e2 : ∀ k : Fin 128, ridx_main_v23 (ix2 r o) k = ix2 k o := fun k => funext fun a => by
    match a with | ⟨0, _⟩ => rfl | ⟨1, _⟩ => rfl
  have e3 : ∀ k : Fin 128, lidx_main_v27 (ix2 r o) k = ix2 r k := fun k => funext fun a => by
    match a with | ⟨0, _⟩ => rfl | ⟨1, _⟩ => rfl
  have e4 : ∀ k : Fin 128, ridx_main_v27 (ix2 r o) k = ix2 k o := fun k => funext fun a => by
    match a with | ⟨0, _⟩ => rfl | ⟨1, _⟩ => rfl
  have e5 : idx_main_v24 (idx_main_v25 (ix2 r o)) = ix1 o := funext fun a => by
    match a with | ⟨0, _⟩ => rfl
  simp only [e1, e2, e3, e4, e5]
  exact layerAt_bias_between (val_main_v22 (F := Ideal) x0 x1) (x0) x3 x5 (fun q => x4 (ix1 q)) r o

/-- The second layer's stage, over the first layer's output and its aggregate. -/
theorem layer2 (x0 : FVec Ideal S50000x128 .f32) (x1 : IVec S2x800000 32) (x3 : FVec Ideal S128x128 .f32) (x4 : FVec Ideal S128 .f32) (x5 : FVec Ideal S128x128 .f32) (x6 : FVec Ideal S128x128 .f32) (x7 : FVec Ideal S128 .f32) (x8 : FVec Ideal S128x128 .f32) :
    val_main_v53 (F := Ideal) x0 x1 x3 x4 x5 x6 x7 x8 = layer (val_main_v47 (F := Ideal) x0 x1 x3 x4 x5) (val_main_v28 (F := Ideal) x0 x1 x3 x4 x5) x6 x8 (fun q => x7 (ix1 q)) := by
  funext i
  obtain ⟨r, o, rfl⟩ : ∃ (r : Fin 50000) (o : Fin 128), i = ix2 r o := ⟨i 0, i 1, eq_ix2 i⟩
  rw [val_main_v53_apply, val_main_v51_apply, val_main_v48_apply, val_main_v50_apply, val_main_v49_apply, val_main_v52_apply]
  have e1 : ∀ k : Fin 128, lidx_main_v48 (ix2 r o) k = ix2 r k := fun k => funext fun a => by
    match a with | ⟨0, _⟩ => rfl | ⟨1, _⟩ => rfl
  have e2 : ∀ k : Fin 128, ridx_main_v48 (ix2 r o) k = ix2 k o := fun k => funext fun a => by
    match a with | ⟨0, _⟩ => rfl | ⟨1, _⟩ => rfl
  have e3 : ∀ k : Fin 128, lidx_main_v52 (ix2 r o) k = ix2 r k := fun k => funext fun a => by
    match a with | ⟨0, _⟩ => rfl | ⟨1, _⟩ => rfl
  have e4 : ∀ k : Fin 128, ridx_main_v52 (ix2 r o) k = ix2 k o := fun k => funext fun a => by
    match a with | ⟨0, _⟩ => rfl | ⟨1, _⟩ => rfl
  have e5 : idx_main_v49 (idx_main_v50 (ix2 r o)) = ix1 o := funext fun a => by
    match a with | ⟨0, _⟩ => rfl
  simp only [e1, e2, e3, e4, e5]
  exact layerAt_bias_between (val_main_v47 (F := Ideal) x0 x1 x3 x4 x5) (val_main_v28 (F := Ideal) x0 x1 x3 x4 x5) x6 x8 (fun q => x7 (ix1 q)) r o

/-- The third layer's stage (ten output columns), over the second layer's output and its aggregate. -/
theorem layer3 (x0 : FVec Ideal S50000x128 .f32) (x1 : IVec S2x800000 32) (x3 : FVec Ideal S128x128 .f32) (x4 : FVec Ideal S128 .f32) (x5 : FVec Ideal S128x128 .f32) (x6 : FVec Ideal S128x128 .f32) (x7 : FVec Ideal S128 .f32) (x8 : FVec Ideal S128x128 .f32) (x9 : FVec Ideal S128x10 .f32) (x10 : FVec Ideal S10 .f32) (x11 : FVec Ideal S128x10 .f32) :
    val_main_v78 (F := Ideal) x0 x1 x3 x4 x5 x6 x7 x8 x9 x10 x11 = layer (val_main_v72 (F := Ideal) x0 x1 x3 x4 x5 x6 x7 x8) (val_main_v53 (F := Ideal) x0 x1 x3 x4 x5 x6 x7 x8) x9 x11 (fun q => x10 (ix1 q)) := by
  funext i
  obtain ⟨r, o, rfl⟩ : ∃ (r : Fin 50000) (o : Fin 10), i = ix2 r o := ⟨i 0, i 1, eq_ix2 i⟩
  rw [val_main_v78_apply, val_main_v76_apply, val_main_v73_apply, val_main_v75_apply, val_main_v74_apply, val_main_v77_apply]
  have e1 : ∀ k : Fin 128, lidx_main_v73 (ix2 r o) k = ix2 r k := fun k => funext fun a => by
    match a with | ⟨0, _⟩ => rfl | ⟨1, _⟩ => rfl
  have e2 : ∀ k : Fin 128, ridx_main_v73 (ix2 r o) k = ix2 k o := fun k => funext fun a => by
    match a with | ⟨0, _⟩ => rfl | ⟨1, _⟩ => rfl
  have e3 : ∀ k : Fin 128, lidx_main_v77 (ix2 r o) k = ix2 r k := fun k => funext fun a => by
    match a with | ⟨0, _⟩ => rfl | ⟨1, _⟩ => rfl
  have e4 : ∀ k : Fin 128, ridx_main_v77 (ix2 r o) k = ix2 k o := fun k => funext fun a => by
    match a with | ⟨0, _⟩ => rfl | ⟨1, _⟩ => rfl
  have e5 : idx_main_v74 (idx_main_v75 (ix2 r o)) = ix1 o := funext fun a => by
    match a with | ⟨0, _⟩ => rfl
  simp only [e1, e2, e3, e4, e5]
  exact layerAt_bias_between (val_main_v72 (F := Ideal) x0 x1 x3 x4 x5 x6 x7 x8) (val_main_v53 (F := Ideal) x0 x1 x3 x4 x5 x6 x7 x8) x9 x11 (fun q => x10 (ix1 q)) r o

end Cert.ReferenceIdeal.Layers

end
-- ==== Proof.LogSoftmax.lean ====
/-
  The row-wise log-softmax: the kernel's body and the reference's `log_softmax` are one function of the pooled array.
  Both subtract the row maximum, exponentiate, sum along the row, take the logarithm and subtract it; the reference
  additionally takes the maximum of the row maximum with −∞, which changes nothing on the extended reals.
-/
import proofs.«113251_j61409442398712_1_alg».proof.Proof.Gen.KernelIdeal.Skeleton
import proofs.«113251_j61409442398712_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-! ## The keep-dimension column forms read at an index -/

variable {α : Type}

/-- A length-256 vector cast to a 256 × 1 column reads, at (g, u), the vector at g. -/
theorem shapeCast_col_apply (x : (⟨1, ![256]⟩ : Shape).Idx → α) (h : (⟨1, ![256]⟩ : Shape).ShapeCasts ⟨2, ![256, 1]⟩)
    (g : Fin 256) (u : Fin 1) : shapeCast ⟨2, ![256, 1]⟩ x h (ix2 g u) = x (ix1 g) :=
  shapeCast_apply x h _ _ (by
    have hu : u.val = 0 := by omega
    rw [Shape.rowMajor_val_two, Shape.rowMajor_val_one]
    show g.val = g.val * 1 + u.val
    rw [hu, Nat.mul_one, Nat.add_zero])

/-- A 256 × 1 column broadcast along the rows to 256 × 10 reads, at (g, j), the column at (g, 0). -/
theorem broadcastTo_col_apply (x : (⟨2, ![256, 1]⟩ : Shape).Idx → α) (h : (⟨2, ![256, 1]⟩ : Shape).Broadcasts ⟨2, ![256, 10]⟩)
    (g : Fin 256) (j : Fin 10) : broadcastTo ⟨2, ![256, 10]⟩ x h (ix2 g j) = x (ix2 g (0 : Fin 1)) := by
  refine broadcastTo_apply x h (ix2 g j) (ix2 g (0 : Fin 1)) fun ax => ?_
  match ax with
  | ⟨0, _⟩ => rfl
  | ⟨1, _⟩ => rfl

/-- The host's keep-dimension broadcast of a length-256 vector to a 256 × 1 column reads, at (g, u), the vector at g. -/
theorem broadcastInDim_col_apply (x : (⟨1, ![256]⟩ : Shape).Idx → α)
    (h : (⟨1, ![256]⟩ : Shape).BroadcastsInDim ⟨2, ![256, 1]⟩ ![0]) (g : Fin 256) (u : Fin 1) :
    broadcastInDim ⟨2, ![256, 1]⟩ ![0] h x (ix2 g u) = x (ix1 g) := by
  refine broadcastInDim_apply _ h x (ix2 g u) (ix1 g) fun ax => ?_
  match ax with
  | ⟨0, _⟩ => rfl

/-- The host's broadcast of a 256 × 1 column to 256 × 10 reads, at (g, j), the column at (g, 0). -/
theorem broadcastInDim_row_apply (x : (⟨2, ![256, 1]⟩ : Shape).Idx → α)
    (h : (⟨2, ![256, 1]⟩ : Shape).BroadcastsInDim ⟨2, ![256, 10]⟩ ![0, 1]) (g : Fin 256) (j : Fin 10) :
    broadcastInDim ⟨2, ![256, 10]⟩ ![0, 1] h x (ix2 g j) = x (ix2 g (0 : Fin 1)) := by
  refine broadcastInDim_apply _ h x (ix2 g j) (ix2 g (0 : Fin 1)) fun ax => ?_
  match ax with
  | ⟨0, _⟩ => rfl
  | ⟨1, _⟩ => rfl

/-- The host's broadcast of a scalar to a length-256 vector reads the scalar everywhere. -/
theorem broadcastInDim_scalar_apply (x : (⟨0, ![]⟩ : Shape).Idx → α)
    (h : (⟨0, ![]⟩ : Shape).BroadcastsInDim ⟨1, ![256]⟩ ![]) (g : Fin 256) :
    broadcastInDim ⟨1, ![256]⟩ ![] h x (ix1 g) = x ix0 :=
  broadcastInDim_apply _ h x (ix1 g) ix0 fun ax => ax.elim0

/-! ## The two row reductions read at a row -/

/-- Row g of the reduced index with column k put back is the index (g, k). -/
theorem lift_row (h : (⟨2, ![256, 10]⟩ : Shape).Reduces [1] ⟨1, ![256]⟩) (g : Fin 256) (k : Fin 10) :
    h.lift (ix1 g) k = ix2 g k := by
  funext c
  apply Fin.ext
  match c with
  | ⟨0, _⟩ => rfl
  | ⟨1, _⟩ => rfl

/-- The maximum of row g of a 256 × 10 array of extended reals, folded over the ten columns from −∞. -/
def rowMax (y : FVec Ideal ⟨2, ![256, 10]⟩ .f32) (g : Fin 256) : Ideal .f32 :=
  (Finset.univ : Finset (Fin 10)).fold max (Ideal.ofBits .f32 0xFF800000#32) fun k => y (ix2 g k)

/-- The kernel's maximum-reduction along the rows, at row g, is that row maximum. -/
theorem multiReduction_max_row (y : FVec Ideal ⟨2, ![256, 10]⟩ .f32) (h : (⟨2, ![256, 10]⟩ : Shape).Reduces [1] ⟨1, ![256]⟩)
    (hφ : FKind.Formats .f32) (hacc : (0xFF800000#32 : BitVec 32) = 0xFF800000#32) (g : Fin 256) :
    multiReduction .maximumf [1] ⟨1, ![256]⟩ y 0xFF800000#32 h hφ hacc (ix1 g) = rowMax y g := by
  refine (Ideal.multiReduction_maximumf_single y _ h hφ hacc (ix1 g)).trans ?_
  exact Finset.fold_congr fun k _ => congrArg y (lift_row h g k)

/-- The host's maximum-reduction along the rows from the constant −∞, at row g, is the same row maximum. -/
theorem hostReduce_max_row (y : FVec Ideal ⟨2, ![256, 10]⟩ .f32) (h' : (⟨2, ![256, 10]⟩ : Shape).ReducesTo [1] ⟨1, ![256]⟩)
    (hu : 0 < (⟨0, ![]⟩ : Shape).numel) (g : Fin 256) :
    Host.reduce FloatOps.maximumf y (constant (F := Ideal) ⟨0, ![]⟩ .f32 0xFF800000#32) h' hu (ix1 g) = rowMax y g := by
  have h : (⟨2, ![256, 10]⟩ : Shape).Reduces [1] ⟨1, ![256]⟩ := by decide
  refine (Host.reduce_eq_fold_single FloatOps.maximumf y _ h' h hu (ix1 g)).trans ?_
  exact Finset.fold_congr fun k _ => congrArg y (lift_row h g k)

/-- The kernel's sum along the rows, at row g, is the sum over the ten columns. -/
theorem multiReduction_add_row (z : FVec Ideal ⟨2, ![256, 10]⟩ .f32) (h : (⟨2, ![256, 10]⟩ : Shape).Reduces [1] ⟨1, ![256]⟩)
    (hφ : FKind.Formats .f32) (hacc : (0x00000000#32 : BitVec 32) = 0x00000000#32) (g : Fin 256) :
    multiReduction .add [1] ⟨1, ![256]⟩ z 0x00000000#32 h hφ hacc (ix1 g) = ∑ k : Fin 10, z (ix2 g k) := by
  refine (Ideal.multiReduction_add_single z _ h hφ hacc (ix1 g)).trans ?_
  exact Finset.sum_congr rfl fun k _ => congrArg z (lift_row h g k)

/-- The host's sum along the rows from the constant zero, at row g, is the same sum. -/
theorem hostReduceAdd_row (z : FVec Ideal ⟨2, ![256, 10]⟩ .f32) (h' : (⟨2, ![256, 10]⟩ : Shape).ReducesTo [1] ⟨1, ![256]⟩)
    (hu : 0 < (⟨0, ![]⟩ : Shape).numel) (g : Fin 256) :
    Host.reduceAdd z (constant (F := Ideal) ⟨0, ![]⟩ .f32 0x00000000#32) h' hu (ix1 g) = ∑ k : Fin 10, z (ix2 g k) := by
  have h : (⟨2, ![256, 10]⟩ : Shape).Reduces [1] ⟨1, ![256]⟩ := by decide
  show Ideal.hostReduceAdd h' z (Ideal.ofBits .f32 0x00000000#32) (ix1 g) = _
  refine (Ideal.hostReduceAdd_single h' h z _ (ix1 g)).trans ?_
  rw [Ideal.ofBits_zero_f32, zero_add]
  exact Finset.sum_congr rfl fun k _ => congrArg z (lift_row h g k)

/-- The maximum with −∞ changes nothing. -/
theorem max_negInf (a : Ideal .f32) : max (Ideal.ofBits .f32 0xFF800000#32) a = a := by
  have hb : Ideal.ofBits .f32 0xFF800000#32 = ⊥ := by simp [Ideal.ofBits, Ideal.ieee]
  rw [hb]; exact max_eq_right bot_le

/-! ## Both sides at an index -/

/-- The kernel's centring: an array minus the column broadcast of a per-row statistic reads, at (g, k), the entry minus the
    statistic of row g. -/
theorem sub_col_kernel (y : FVec Ideal ⟨2, ![256, 10]⟩ .f32) (m : FVec Ideal ⟨1, ![256]⟩ .f32)
    (hc : (⟨1, ![256]⟩ : Shape).ShapeCasts ⟨2, ![256, 1]⟩) (hb : (⟨2, ![256, 1]⟩ : Shape).Broadcasts ⟨2, ![256, 10]⟩)
    (g : Fin 256) (k : Fin 10) :
    subf y (broadcastTo ⟨2, ![256, 10]⟩ (shapeCast ⟨2, ![256, 1]⟩ m hc) hb) (ix2 g k) = y (ix2 g k) - m (ix1 g) := by
  rw [subf_apply, broadcastTo_col_apply, shapeCast_col_apply]

/-- The reference's centring, with its two keep-dimension broadcasts, reads the same. -/
theorem sub_col_host (y : FVec Ideal ⟨2, ![256, 10]⟩ .f32) (m : FVec Ideal ⟨1, ![256]⟩ .f32)
    (hc : (⟨1, ![256]⟩ : Shape).BroadcastsInDim ⟨2, ![256, 1]⟩ ![0])
    (hb : (⟨2, ![256, 1]⟩ : Shape).BroadcastsInDim ⟨2, ![256, 10]⟩ ![0, 1]) (g : Fin 256) (k : Fin 10) :
    subf y (broadcastInDim ⟨2, ![256, 10]⟩ ![0, 1] hb (broadcastInDim ⟨2, ![256, 1]⟩ ![0] hc m)) (ix2 g k)
      = y (ix2 g k) - m (ix1 g) := by
  rw [subf_apply, broadcastInDim_row_apply, broadcastInDim_col_apply]

/-- The elementwise exponential and logarithm, the kernel's and the host's, are one function of the entry. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The kernel's body at (g, j): the entry minus its row's maximum, minus the logarithm of the row's sum of the
    exponentials of the centred entries. -/
theorem kernel_apply (y : FVec Ideal Cert.KernelIdeal.S256x10 .f32) (g : Fin 256) (j : Fin 10) :
    Cert.KernelIdeal.Gen.k3_pay1 (F := Ideal) y (ix2 g j)
      = (y (ix2 g j) - rowMax y g) - Ideal.log (∑ k : Fin 10, Ideal.exp (y (ix2 g k) - rowMax y g)) := by
  have h1 : shapeCast Cert.KernelIdeal.S256x10 y Cert.KernelIdeal.Gen.shapeCasts_S256x10_S256x10 = y :=
    funext fun i => shapeCast_apply y _ i i rfl
  unfold Cert.KernelIdeal.Gen.k3_pay1
  simp only [h1]
  rw [subf_apply, sub_col_kernel, multiReduction_max_row, broadcastTo_col_apply, log_apply, shapeCast_col_apply,
    multiReduction_add_row]
  refine congrArg (fun t => y (ix2 g j) - rowMax y g - Ideal.log t) (Finset.sum_congr rfl fun k _ => ?_)
  rw [exp_apply, sub_col_kernel, multiReduction_max_row]

/-- The reference's row statistic: the maximum of −∞ (broadcast to every row) and the host's row maximum is the row maximum. -/
theorem host_rowMax (y : FVec Ideal ⟨2, ![256, 10]⟩ .f32) (h' : (⟨2, ![256, 10]⟩ : Shape).ReducesTo [1] ⟨1, ![256]⟩)
    (hu : 0 < (⟨0, ![]⟩ : Shape).numel) (hb : (⟨0, ![]⟩ : Shape).BroadcastsInDim ⟨1, ![256]⟩ ![]) (g : Fin 256) :
    maximumf (broadcastInDim ⟨1, ![256]⟩ ![] hb (constant (F := Ideal) ⟨0, ![]⟩ .f32 0xFF800000#32))
        (Host.reduce FloatOps.maximumf y (constant (F := Ideal) ⟨0, ![]⟩ .f32 0xFF800000#32) h' hu) (ix1 g)
      = rowMax y g := by
  rw [maximumf_apply, broadcastInDim_scalar_apply, constant_apply, hostReduce_max_row, max_negInf]

/-- The kernel's log-softmax body applied to the reference's pooled array is the reference's result stage. -/
theorem logSoftmax_eq (x0 : FVec Ideal Cert.ReferenceIdeal.S50000x128 .f32) (x1 : IVec Cert.ReferenceIdeal.S2x800000 32) (x2 : IVec Cert.ReferenceIdeal.S50000 32) (x3 : FVec Ideal Cert.ReferenceIdeal.S128x128 .f32) (x4 : FVec Ideal Cert.ReferenceIdeal.S128 .f32) (x5 x6 : FVec Ideal Cert.ReferenceIdeal.S128x128 .f32) (x7 : FVec Ideal Cert.ReferenceIdeal.S128 .f32) (x8 : FVec Ideal Cert.ReferenceIdeal.S128x128 .f32) (x9 : FVec Ideal Cert.ReferenceIdeal.S128x10 .f32) (x10 : FVec Ideal Cert.ReferenceIdeal.S10 .f32) (x11 : FVec Ideal Cert.ReferenceIdeal.S128x10 .f32) :
    Cert.KernelIdeal.Gen.k3_pay1 (F := Ideal) (Cert.ReferenceIdeal.Read.val_main_v90 (F := Ideal) x0 x1 x2 x3 x4 x5 x6 x7 x8 x9 x10 x11)
      = Cert.ReferenceIdeal.Read.val_main_v91 (F := Ideal) x0 x1 x2 x3 x4 x5 x6 x7 x8 x9 x10 x11 := by
  unfold Cert.ReferenceIdeal.Read.val_main_v91 Cert.ReferenceIdeal.Read.val_main_call0_v10
    Cert.ReferenceIdeal.Read.val_main_call0_v9 Cert.ReferenceIdeal.Read.val_main_call0_v8
    Cert.ReferenceIdeal.Read.val_main_call0_v7 Cert.ReferenceIdeal.Read.val_main_call0_v6
    Cert.ReferenceIdeal.Read.val_main_call0_v5 Cert.ReferenceIdeal.Read.val_main_call0_v4
    Cert.ReferenceIdeal.Read.val_main_call0_v3 Cert.ReferenceIdeal.Read.val_main_call0_v2
    Cert.ReferenceIdeal.Read.val_main_call0_v1 Cert.ReferenceIdeal.Read.val_main_call0_v0
    Cert.ReferenceIdeal.Read.val_main_call0_cst Cert.ReferenceIdeal.Read.val_main_call0_cst_0
    Cert.ReferenceIdeal.Read.val_main_call0_cst_1
  generalize Cert.ReferenceIdeal.Read.val_main_v90 (F := Ideal) x0 x1 x2 x3 x4 x5 x6 x7 x8 x9 x10 x11 = y
  funext i
  obtain ⟨g, j, rfl⟩ : ∃ (g : Fin 256) (j : Fin 10), i = ix2 g j := ⟨i 0, i 1, eq_ix2 i⟩
  rw [kernel_apply, subf_apply, sub_col_host, host_rowMax, broadcastInDim_row_apply, hostLog_apply,
    broadcastInDim_col_apply, hostReduceAdd_row]
  refine congrArg (fun t => y (ix2 g j) - rowMax y g - Ideal.log t) (Finset.sum_congr rfl fun k _ => ?_)
  rw [hostExp_apply, sub_col_host, host_rowMax]

end Cert.Bridge

end
-- ==== Proof.KStages.lean ====
/-
  The kernel program's buffer contents at each boundary between a host stretch and a region, named by the reference's
  stages. The host stretches of the two programs are the same operations (the edge list's two rows, the gather of
  source rows, the scatter-add onto destination rows, the count, the division by max(count, 1); at the end the pooling
  by graph), so each stretch's result is the reference's stage of the same inputs; each layer region's output array is
  the layer function of its inputs, which is the reference's layer stage; the last region's output is the kernel's
  log-softmax of the pooled array, which is the reference's result stage. Read in program order, the kernel's result
  array ends at the reference's result stage of the argument arrays.
-/
import proofs.«113251_j61409442398712_1_alg».proof.Proof.Gen.KernelIdeal.Frame
import proofs.«113251_j61409442398712_1_alg».proof.Proof.Gen.ReferenceIdeal.Read
import Idealize.ShloMosaic.Lib.StableHlo.Run
import Idealize.ShloMosaic.Lib.ValueLayout
import proofs.«113251_j61409442398712_1_alg».proof.Proof.KLayer0
import proofs.«113251_j61409442398712_1_alg».proof.Proof.KLayer1
import proofs.«113251_j61409442398712_1_alg».proof.Proof.KLayer2
import proofs.«113251_j61409442398712_1_alg».proof.Proof.KRegion3
import proofs.«113251_j61409442398712_1_alg».proof.Proof.RefLayers
import proofs.«113251_j61409442398712_1_alg».proof.Proof.LogSoftmax

set_option maxRecDepth 16384

noncomputable section

namespace Cert.Bridge

open Cert.KernelIdeal Cert.KernelIdeal.Gen Cert.ReferenceIdeal.Read Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The argument arrays as launched. -/
abbrev a0 (c : Dev nD) : FVec Ideal S50000x128 .f32 := m ((c : Thread nD τ).loc main_arg0)
abbrev a1 (c : Dev nD) : IVec S2x800000 32 := m ((c : Thread nD τ).loc main_arg1)
abbrev a2 (c : Dev nD) : IVec S50000 32 := m ((c : Thread nD τ).loc main_arg2)
abbrev a3 (c : Dev nD) : FVec Ideal S128x128 .f32 := m ((c : Thread nD τ).loc main_arg3)
abbrev a4 (c : Dev nD) : FVec Ideal S128 .f32 := m ((c : Thread nD τ).loc main_arg4)
abbrev a5 (c : Dev nD) : FVec Ideal S128x128 .f32 := m ((c : Thread nD τ).loc main_arg5)
abbrev a6 (c : Dev nD) : FVec Ideal S128x128 .f32 := m ((c : Thread nD τ).loc main_arg6)
abbrev a7 (c : Dev nD) : FVec Ideal S128 .f32 := m ((c : Thread nD τ).loc main_arg7)
abbrev a8 (c : Dev nD) : FVec Ideal S128x128 .f32 := m ((c : Thread nD τ).loc main_arg8)
abbrev a9 (c : Dev nD) : FVec Ideal S128x10 .f32 := m ((c : Thread nD τ).loc main_arg9)
abbrev a10 (c : Dev nD) : FVec Ideal S10 .f32 := m ((c : Thread nD τ).loc main_arg10)
abbrev a11 (c : Dev nD) : FVec Ideal S128x10 .f32 := m ((c : Thread nD τ).loc main_arg11)

/-! ## After the first host stretch (the first region's entry) -/
set_option maxHeartbeats 4000000 in
theorem W1_v1 (c : Dev nD) : W1 m ρ c (Proc.devRef .tc main_v1) = val_main_v1 (F := Ideal) (a1 m c) := by
  show StableHlo.after hostOps0 (W0 m ρ c) (Proc.devRef .tc main_v1) = _
  after_results_simp <;> rfl
set_option maxHeartbeats 4000000 in
theorem W1_v3 (c : Dev nD) : W1 m ρ c (Proc.devRef .tc main_v3) = val_main_v3 (F := Ideal) (a1 m c) := by
  show StableHlo.after hostOps0 (W0 m ρ c) (Proc.devRef .tc main_v3) = _
  after_results_simp <;> rfl
set_option maxHeartbeats 4000000 in
theorem W1_v22 (c : Dev nD) : W1 m ρ c (Proc.devRef .tc main_v22) = val_main_v22 (F := Ideal) (a0 m c) (a1 m c) := by
  show StableHlo.after hostOps0 (W0 m ρ c) (Proc.devRef .tc main_v22) = _
  after_results_simp <;> rfl
set_option maxHeartbeats 4000000 in
theorem W1_v23 (c : Dev nD) : W1 m ρ c (Proc.devRef .tc main_v23) = shapeCast S1x128 (a4 m c) shapeCasts_S128_S1x128 := by
  show StableHlo.after hostOps0 (W0 m ρ c) (Proc.devRef .tc main_v23) = _
  after_results_simp <;> rfl
set_option maxHeartbeats 4000000 in
theorem W1_arg0 (c : Dev nD) : W1 m ρ c (Proc.devRef .tc main_arg0) = a0 m c := by
  show StableHlo.after hostOps0 (W0 m ρ c) (Proc.devRef .tc main_arg0) = _
  after_results_simp <;> rfl
set_option maxHeartbeats 4000000 in
theorem W1_arg2 (c : Dev nD) : W1 m ρ c (Proc.devRef .tc main_arg2) = a2 m c := by
  show StableHlo.after hostOps0 (W0 m ρ c) (Proc.devRef .tc main_arg2) = _
  after_results_simp <;> rfl
set_option maxHeartbeats 4000000 in
theorem W1_arg3 (c : Dev nD) : W1 m ρ c (Proc.devRef .tc main_arg3) = a3 m c := by
  show StableHlo.after hostOps0 (W0 m ρ c) (Proc.devRef .tc main_arg3) = _
  after_results_simp <;> rfl
set_option maxHeartbeats 4000000 in
theorem W1_arg5 (c : Dev nD) : W1 m ρ c (Proc.devRef .tc main_arg5) = a5 m c := by
  show StableHlo.after hostOps0 (W0 m ρ c) (Proc.devRef .tc main_arg5) = _
  after_results_simp <;> rfl
set_option maxHeartbeats 4000000 in
theorem W1_arg6 (c : Dev nD) : W1 m ρ c (Proc.devRef .tc main_arg6) = a6 m c := by
  show StableHlo.after hostOps0 (W0 m ρ c) (Proc.devRef .tc main_arg6) = _
  after_results_simp <;> rfl
set_option maxHeartbeats 4000000 in
theorem W1_arg7 (c : Dev nD) : W1 m ρ c (Proc.devRef .tc main_arg7) = a7 m c := by
  show StableHlo.after hostOps0 (W0 m ρ c) (Proc.devRef .tc main_arg7) = _
  after_results_simp <;> rfl
set_option maxHeartbeats 4000000 in
theorem W1_arg8 (c : Dev nD) : W1 m ρ c (Proc.devRef .tc main_arg8) = a8 m c := by
  show StableHlo.after hostOps0 (W0 m ρ c) (Proc.devRef .tc main_arg8) = _
  after_results_simp <;> rfl
set_option maxHeartbeats 4000000 in
theorem W1_arg9 (c : Dev nD) : W1 m ρ c (Proc.devRef .tc main_arg9) = a9 m c := by
  show StableHlo.after hostOps0 (W0 m ρ c) (Proc.devRef .tc main_arg9) = _
  after_results_simp <;> rfl
set_option maxHeartbeats 4000000 in
theorem W1_arg10 (c : Dev nD) : W1 m ρ c (Proc.devRef .tc main_arg10) = a10 m c := by
  show StableHlo.after hostOps0 (W0 m ρ c) (Proc.devRef .tc main_arg10) = _
  after_results_simp <;> rfl
set_option maxHeartbeats 4000000 in
theorem W1_arg11 (c : Dev nD) : W1 m ρ c (Proc.devRef .tc main_arg11) = a11 m c := by
  show StableHlo.after hostOps0 (W0 m ρ c) (Proc.devRef .tc main_arg11) = _
  after_results_simp <;> rfl

/-! ## After the first region: its output is the first layer -/
theorem W2_v24 (c : Dev nD) : W2 m ρ c (Proc.devRef .tc main_v24) = val_main_v28 (F := Ideal) (a0 m c) (a1 m c) (a3 m c) (a4 m c) (a5 m c) := by
  refine (W2_arr m ρ c 5).trans ((Cert.KernelIdeal.Layer0.arr_eq (V1 m ρ) c).trans ?_)
  rw [Cert.ReferenceIdeal.Layers.layer1]
  show Cert.Sage.layer (W1 m ρ c (Proc.devRef .tc main_v22) : FVec Ideal S50000x128 .f32) (W1 m ρ c (Proc.devRef .tc main_arg0) : FVec Ideal S50000x128 .f32) (W1 m ρ c (Proc.devRef .tc main_arg3) : FVec Ideal S128x128 .f32) (W1 m ρ c (Proc.devRef .tc main_arg5) : FVec Ideal S128x128 .f32) (fun q => (W1 m ρ c (Proc.devRef .tc main_v23) : FVec Ideal S1x128 .f32) (ix2 (0 : Fin 1) q)) = _
  rw [W1_v22, W1_arg0, W1_arg3, W1_arg5, W1_v23]
  exact congrArg _ (funext fun q => shapeCast_a_1a_apply (a4 m c) shapeCasts_S128_S1x128 0 q)
theorem W2_v1 (c : Dev nD) : W2 m ρ c (Proc.devRef .tc main_v1) = val_main_v1 (F := Ideal) (a1 m c) :=
  (W2_of_ne m ρ c main_v1 (by decide)).trans (W1_v1 m ρ c)
theorem W2_v3 (c : Dev nD) : W2 m ρ c (Proc.devRef .tc main_v3) = val_main_v3 (F := Ideal) (a1 m c) :=
  (W2_of_ne m ρ c main_v3 (by decide)).trans (W1_v3 m ρ c)
theorem W2_arg2 (c : Dev nD) : W2 m ρ c (Proc.devRef .tc main_arg2) = a2 m c :=
  (W2_of_ne m ρ c main_arg2 (by decide)).trans (W1_arg2 m ρ c)
theorem W2_arg6 (c : Dev nD) : W2 m ρ c (Proc.devRef .tc main_arg6) = a6 m c :=
  (W2_of_ne m ρ c main_arg6 (by decide)).trans (W1_arg6 m ρ c)
theorem W2_arg7 (c : Dev nD) : W2 m ρ c (Proc.devRef .tc main_arg7) = a7 m c :=
  (W2_of_ne m ρ c main_arg7 (by decide)).trans (W1_arg7 m ρ c)
theorem W2_arg8 (c : Dev nD) : W2 m ρ c (Proc.devRef .tc main_arg8) = a8 m c :=
  (W2_of_ne m ρ c main_arg8 (by decide)).trans (W1_arg8 m ρ c)
theorem W2_arg9 (c : Dev nD) : W2 m ρ c (Proc.devRef .tc main_arg9) = a9 m c :=
  (W2_of_ne m ρ c main_arg9 (by decide)).trans (W1_arg9 m ρ c)
theorem W2_arg10 (c : Dev nD) : W2 m ρ c (Proc.devRef .tc main_arg10) = a10 m c :=
  (W2_of_ne m ρ c main_arg10 (by decide)).trans (W1_arg10 m ρ c)
theorem W2_arg11 (c : Dev nD) : W2 m ρ c (Proc.devRef .tc main_arg11) = a11 m c :=
  (W2_of_ne m ρ c main_arg11 (by decide)).trans (W1_arg11 m ρ c)

/-! ## After the second host stretch -/
set_option maxHeartbeats 4000000 in
theorem W3_v43 (c : Dev nD) : W3 m ρ c (Proc.devRef .tc main_v43) = val_main_v47 (F := Ideal) (a0 m c) (a1 m c) (a3 m c) (a4 m c) (a5 m c) := by
  show StableHlo.after hostOps1 (W2 m ρ c) (Proc.devRef .tc main_v43) = _
  after_results_simp
  rw [W2_v1, W2_v3, W2_v24]
  rfl
set_option maxHeartbeats 4000000 in
theorem W3_v44 (c : Dev nD) : W3 m ρ c (Proc.devRef .tc main_v44) = shapeCast S1x128 (a7 m c) shapeCasts_S128_S1x128 := by
  show StableHlo.after hostOps1 (W2 m ρ c) (Proc.devRef .tc main_v44) = _
  after_results_simp
  rw [W2_arg7]
  rfl
set_option maxHeartbeats 4000000 in
theorem W3_v24 (c : Dev nD) : W3 m ρ c (Proc.devRef .tc main_v24) = val_main_v28 (F := Ideal) (a0 m c) (a1 m c) (a3 m c) (a4 m c) (a5 m c) := by
  show StableHlo.after hostOps1 (W2 m ρ c) (Proc.devRef .tc main_v24) = _
  after_results_simp
  exact W2_v24 m ρ c
set_option maxHeartbeats 4000000 in
theorem W3_v1 (c : Dev nD) : W3 m ρ c (Proc.devRef .tc main_v1) = val_main_v1 (F := Ideal) (a1 m c) := by
  show StableHlo.after hostOps1 (W2 m ρ c) (Proc.devRef .tc main_v1) = _
  after_results_simp
  exact W2_v1 m ρ c
set_option maxHeartbeats 4000000 in
theorem W3_v3 (c : Dev nD) : W3 m ρ c (Proc.devRef .tc main_v3) = val_main_v3 (F := Ideal) (a1 m c) := by
  show StableHlo.after hostOps1 (W2 m ρ c) (Proc.devRef .tc main_v3) = _
  after_results_simp
  exact W2_v3 m ρ c
set_option maxHeartbeats 4000000 in
theorem W3_arg2 (c : Dev nD) : W3 m ρ c (Proc.devRef .tc main_arg2) = a2 m c := by
  show StableHlo.after hostOps1 (W2 m ρ c) (Proc.devRef .tc main_arg2) = _
  after_results_simp
  exact W2_arg2 m ρ c
set_option maxHeartbeats 4000000 in
theorem W3_arg6 (c : Dev nD) : W3 m ρ c (Proc.devRef .tc main_arg6) = a6 m c := by
  show StableHlo.after hostOps1 (W2 m ρ c) (Proc.devRef .tc main_arg6) = _
  after_results_simp
  exact W2_arg6 m ρ c
set_option maxHeartbeats 4000000 in
theorem W3_arg8 (c : Dev nD) : W3 m ρ c (Proc.devRef .tc main_arg8) = a8 m c := by
  show StableHlo.after hostOps1 (W2 m ρ c) (Proc.devRef .tc main_arg8) = _
  after_results_simp
  exact W2_arg8 m ρ c
set_option maxHeartbeats 4000000 in
theorem W3_arg9 (c : Dev nD) : W3 m ρ c (Proc.devRef .tc main_arg9) = a9 m c := by
  show StableHlo.after hostOps1 (W2 m ρ c) (Proc.devRef .tc main_arg9) = _
  after_results_simp
  exact W2_arg9 m ρ c
set_option maxHeartbeats 4000000 in
theorem W3_arg10 (c : Dev nD) : W3 m ρ c (Proc.devRef .tc main_arg10) = a10 m c := by
  show StableHlo.after hostOps1 (W2 m ρ c) (Proc.devRef .tc main_arg10) = _
  after_results_simp
  exact W2_arg10 m ρ c
set_option maxHeartbeats 4000000 in
theorem W3_arg11 (c : Dev nD) : W3 m ρ c (Proc.devRef .tc main_arg11) = a11 m c := by
  show StableHlo.after hostOps1 (W2 m ρ c) (Proc.devRef .tc main_arg11) = _
  after_results_simp
  exact W2_arg11 m ρ c

/-! ## After the second region: its output is the second layer -/
theorem W4_v45 (c : Dev nD) : W4 m ρ c (Proc.devRef .tc main_v45) = val_main_v53 (F := Ideal) (a0 m c) (a1 m c) (a3 m c) (a4 m c) (a5 m c) (a6 m c) (a7 m c) (a8 m c) := by
  refine (W4_arr m ρ c 5).trans ((Cert.KernelIdeal.Layer1.arr_eq (V3 m ρ) c).trans ?_)
  rw [Cert.ReferenceIdeal.Layers.layer2]
  show Cert.Sage.layer (W3 m ρ c (Proc.devRef .tc main_v43) : FVec Ideal S50000x128 .f32) (W3 m ρ c (Proc.devRef .tc main_v24) : FVec Ideal S50000x128 .f32) (W3 m ρ c (Proc.devRef .tc main_arg6) : FVec Ideal S128x128 .f32) (W3 m ρ c (Proc.devRef .tc main_arg8) : FVec Ideal S128x128 .f32) (fun q => (W3 m ρ c (Proc.devRef .tc main_v44) : FVec Ideal S1x128 .f32) (ix2 (0 : Fin 1) q)) = _
  rw [W3_v43, W3_v24, W3_arg6, W3_arg8, W3_v44]
  exact congrArg _ (funext fun q => shapeCast_a_1a_apply (a7 m c) shapeCasts_S128_S1x128 0 q)
theorem W4_v1 (c : Dev nD) : W4 m ρ c (Proc.devRef .tc main_v1) = val_main_v1 (F := Ideal) (a1 m c) :=
  (W4_of_ne m ρ c main_v1 (by decide)).trans (W3_v1 m ρ c)
theorem W4_v3 (c : Dev nD) : W4 m ρ c (Proc.devRef .tc main_v3) = val_main_v3 (F := Ideal) (a1 m c) :=
  (W4_of_ne m ρ c main_v3 (by decide)).trans (W3_v3 m ρ c)
theorem W4_arg2 (c : Dev nD) : W4 m ρ c (Proc.devRef .tc main_arg2) = a2 m c :=
  (W4_of_ne m ρ c main_arg2 (by decide)).trans (W3_arg2 m ρ c)
theorem W4_arg9 (c : Dev nD) : W4 m ρ c (Proc.devRef .tc main_arg9) = a9 m c :=
  (W4_of_ne m ρ c main_arg9 (by decide)).trans (W3_arg9 m ρ c)
theorem W4_arg10 (c : Dev nD) : W4 m ρ c (Proc.devRef .tc main_arg10) = a10 m c :=
  (W4_of_ne m ρ c main_arg10 (by decide)).trans (W3_arg10 m ρ c)
theorem W4_arg11 (c : Dev nD) : W4 m ρ c (Proc.devRef .tc main_arg11) = a11 m c :=
  (W4_of_ne m ρ c main_arg11 (by decide)).trans (W3_arg11 m ρ c)

/-! ## After the third host stretch -/
set_option maxHeartbeats 4000000 in
theorem W5_v64 (c : Dev nD) : W5 m ρ c (Proc.devRef .tc main_v64) = val_main_v72 (F := Ideal) (a0 m c) (a1 m c) (a3 m c) (a4 m c) (a5 m c) (a6 m c) (a7 m c) (a8 m c) := by
  show StableHlo.after hostOps2 (W4 m ρ c) (Proc.devRef .tc main_v64) = _
  after_results_simp
  rw [W4_v1, W4_v3, W4_v45]
  rfl
set_option maxHeartbeats 4000000 in
theorem W5_v65 (c : Dev nD) : W5 m ρ c (Proc.devRef .tc main_v65) = shapeCast S1x10 (a10 m c) shapeCasts_S10_S1x10 := by
  show StableHlo.after hostOps2 (W4 m ρ c) (Proc.devRef .tc main_v65) = _
  after_results_simp
  rw [W4_arg10]
  rfl
set_option maxHeartbeats 4000000 in
theorem W5_v45 (c : Dev nD) : W5 m ρ c (Proc.devRef .tc main_v45) = val_main_v53 (F := Ideal) (a0 m c) (a1 m c) (a3 m c) (a4 m c) (a5 m c) (a6 m c) (a7 m c) (a8 m c) := by
  show StableHlo.after hostOps2 (W4 m ρ c) (Proc.devRef .tc main_v45) = _
  after_results_simp
  exact W4_v45 m ρ c
set_option maxHeartbeats 4000000 in
theorem W5_arg2 (c : Dev nD) : W5 m ρ c (Proc.devRef .tc main_arg2) = a2 m c := by
  show StableHlo.after hostOps2 (W4 m ρ c) (Proc.devRef .tc main_arg2) = _
  after_results_simp
  exact W4_arg2 m ρ c
set_option maxHeartbeats 4000000 in
theorem W5_arg9 (c : Dev nD) : W5 m ρ c (Proc.devRef .tc main_arg9) = a9 m c := by
  show StableHlo.after hostOps2 (W4 m ρ c) (Proc.devRef .tc main_arg9) = _
  after_results_simp
  exact W4_arg9 m ρ c
set_option maxHeartbeats 4000000 in
theorem W5_arg11 (c : Dev nD) : W5 m ρ c (Proc.devRef .tc main_arg11) = a11 m c := by
  show StableHlo.after hostOps2 (W4 m ρ c) (Proc.devRef .tc main_arg11) = _
  after_results_simp
  exact W4_arg11 m ρ c

/-! ## After the third region: its output is the third layer -/
theorem W6_v66 (c : Dev nD) : W6 m ρ c (Proc.devRef .tc main_v66) = val_main_v78 (F := Ideal) (a0 m c) (a1 m c) (a3 m c) (a4 m c) (a5 m c) (a6 m c) (a7 m c) (a8 m c) (a9 m c) (a10 m c) (a11 m c) := by
  refine (W6_arr m ρ c 5).trans ((Cert.KernelIdeal.Layer2.arr_eq (V5 m ρ) c).trans ?_)
  rw [Cert.ReferenceIdeal.Layers.layer3]
  show Cert.Sage.layer (W5 m ρ c (Proc.devRef .tc main_v64) : FVec Ideal S50000x128 .f32) (W5 m ρ c (Proc.devRef .tc main_v45) : FVec Ideal S50000x128 .f32) (W5 m ρ c (Proc.devRef .tc main_arg9) : FVec Ideal S128x10 .f32) (W5 m ρ c (Proc.devRef .tc main_arg11) : FVec Ideal S128x10 .f32) (fun q => (W5 m ρ c (Proc.devRef .tc main_v65) : FVec Ideal S1x10 .f32) (ix2 (0 : Fin 1) q)) = _
  rw [W5_v64, W5_v45, W5_arg9, W5_arg11, W5_v65]
  exact congrArg _ (funext fun q => shapeCast_a_1a_apply (a10 m c) shapeCasts_S10_S1x10 0 q)
theorem W6_arg2 (c : Dev nD) : W6 m ρ c (Proc.devRef .tc main_arg2) = a2 m c :=
  (W6_of_ne m ρ c main_arg2 (by decide)).trans (W5_arg2 m ρ c)

/-! ## After the last host stretch: the pooled array -/
set_option maxHeartbeats 4000000 in
theorem W7_v78 (c : Dev nD) : W7 m ρ c (Proc.devRef .tc main_v78) = val_main_v90 (F := Ideal) (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v78) = _
  after_results_simp
  rw [W6_arg2, W6_v66]
  rfl

/-! ## After the last region: the result -/
/-- The kernel's result array ends at the reference's result stage of the argument arrays. -/
theorem W8_v79 (c : Dev nD) : W8 m ρ c (Proc.devRef .tc main_v79) = val_main_v91 (F := Ideal) (a0 m c) (a1 m c) (a2 m c) (a3 m c) (a4 m c) (a5 m c) (a6 m c) (a7 m c) (a8 m c) (a9 m c) (a10 m c) (a11 m c) := by
  refine (W8_arr m ρ c 1).trans ((Cert.KernelIdeal.Region3.arr_eq (V7 m ρ) c).trans ?_)
  show k3_pay1 (F := Ideal) (W7 m ρ c (Proc.devRef .tc main_v78) : FVec Ideal S256x10 .f32) = _
  rw [W7_v78]
  exact logSoftmax_eq (a0 m c) (a1 m c) (a2 m c) (a3 m c) (a4 m c) (a5 m c) (a6 m c) (a7 m c) (a8 m c) (a9 m c) (a10 m c) (a11 m c)

end Cert.Bridge

end
-- ==== Proof.lean ====
/-
  The certificate of a three-layer GraphSAGE network with global mean pooling and a log-softmax head, kernel against reference.

  Both programs compute, for each of the three layers, the mean aggregate of the current node features over incoming
  edges (a gather of source rows, a scatter-add onto destination rows, a division by max(in-degree, 1)) and then the
  affine map  out = agg · Wl + x · Wr + b ; after the third layer they pool the ten class scores of each graph's nodes by
  the mean and apply a row-wise log-softmax. The gather, the scatter-adds, the divisions and the pooling are the same
  host operations in both programs. The kernel does each affine map in a pallas_call over 25 row blocks of 2000 nodes
  (two block products, their sum, the broadcast bias) and the log-softmax in a one-point pallas_call; the reference does
  whole-array dot products with the bias added between them, and calls a log-softmax that takes one more maximum with −∞.

  Over the extended reals the two are one function: a change of float format is the identity, a block product into a zero
  accumulator and a whole-array dot product are both the sum over the contracted axis, addition is commutative and
  associative (so the position of the bias does not matter), and max(−∞, a) = a. No finiteness of the inputs is used.

  The kernel program's run is the generated launch over its eight segments with the result array also read at the end
  (Proof/KRun.lean); each region's output array is read off its blocks (Proof/KLayer0..2, Proof/KRegion3); the reference's
  layer stages are the same layer function (Proof/RefLayers.lean, over Proof/Spec.lean) and its log-softmax the kernel's
  (Proof/LogSoftmax.lean); Proof/KStages.lean walks the kernel program boundary by boundary and names each buffer by the
  reference's stage. The three frames are the generated frame runs; the ideal pass rewrote nothing, so `preserves` is trivial.
-/
import proofs.«113251_j61409442398712_1_alg».proof.Defs
import proofs.«113251_j61409442398712_1_alg».proof.Proof.Gen.Kernel
import proofs.«113251_j61409442398712_1_alg».proof.Proof.Gen.Kernel.Frame
import proofs.«113251_j61409442398712_1_alg».proof.Proof.Gen.KernelIdeal
import proofs.«113251_j61409442398712_1_alg».proof.Proof.Gen.KernelIdeal.Frame
import proofs.«113251_j61409442398712_1_alg».proof.Proof.Gen.ReferenceIdeal
import proofs.«113251_j61409442398712_1_alg».proof.Proof.Gen.ReferenceIdeal.Run
import proofs.«113251_j61409442398712_1_alg».proof.Proof.Gen.ReferenceIdeal.Read
import proofs.«113251_j61409442398712_1_alg».proof.Proof.Gen.Pre_finite_inputs
import proofs.«113251_j61409442398712_1_alg».proof.Proof.KRun
import proofs.«113251_j61409442398712_1_alg».proof.Proof.KStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the reference's result stage
    of the arguments: the kernel program's by the walk through its boundaries, the reference's by its generated run. -/
theorem algebraic : Cert.algebraic_KernelIdeal_ReferenceIdeal := by
  intro m ρ m' ρ' _ hagree
  refine ⟨fun c => Cert.ReferenceIdeal.Read.val_main_v91 (F := Ideal) (Cert.Bridge.a0 m c) (Cert.Bridge.a1 m c) (Cert.Bridge.a2 m c) (Cert.Bridge.a3 m c) (Cert.Bridge.a4 m c) (Cert.Bridge.a5 m c) (Cert.Bridge.a6 m c) (Cert.Bridge.a7 m c) (Cert.Bridge.a8 m c) (Cert.Bridge.a9 m c) (Cert.Bridge.a10 m c) (Cert.Bridge.a11 m c), ?_, ?_⟩
  · exact (θ_run Cert.KernelIdeal.defs _ _).mono (fun _ h c => ⟨(h c).1.trans (Cert.Bridge.W8_v79 m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq]
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
